-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S4x1 .f32) (main_arg13 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x1 .f32 := Host.absf main_arg12
  let main_cst_20 : FVec F S_ .f32 := constant S_ .f32 0x7F800000#32
  let main_v55 : FVec F S4x1 .f32 := broadcastInDim S4x1 ![] bcast_S_S4x1 main_cst_20
  let main_v56 : IVec S4x1 1 := cmpf .olt main_v54 main_v55
  let main_c_21 : IVec S_ 1 := constantI S_ 1 1#1
  let main_v57 : IVec S_ 1 := (fun x v => Host.reduce IntOp.andi x v reducesTo_S4x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S16x8 .f32) (main_arg9 : FVec F S8 .f32) (main_arg10 : FVec F S8x4 .f32) (main_arg11 : FVec F S4 .f32) (main_arg12 : FVec F S4x1 .f32) (main_arg13 : FVec F S1 .f32) (main_v33 : IVec S_ 1) : IVec S_ 1 :=
  let main_v34 : FVec F S16x8 .f32 := Host.absf main_arg8
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x4 .f32 := Host.absf main_arg10
  let main_cst_16 : FVec F S_ .f32 := constant S_ .f32 0x7F800000#32
  let main_v45 : FVec F S8x4 .f32 := broadcastInDim S8x4 ![] bcast_S_S8x4 main_cst_16
  let main_v46 : IVec S8x4 1 := cmpf .olt main_v44 main_v45
  let main_c_17 : IVec S_ 1 := constantI S_ 1 1#1
  let main_v47 : IVec S_ 1 := (fun x v => Host.reduce IntOp.andi x v reducesTo_S8x4_S_d0_1 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_arg12 main_arg13 main_v48 main_v49 main_v50

def fn_part1 {F : FTy → Type} [FloatOps F] (main_arg5 : FVec F S32 .f32) (main_arg6 : FVec F S32x16 .f32) (main_arg7 : FVec F S16 .f32) (main_arg8 : FVec F S16x8 .f32) (main_arg9 : FVec F S8 .f32) (main_arg10 : FVec F S8x4 .f32) (main_arg11 : FVec F S4 .f32) (main_arg12 : FVec F S4x1 .f32) (main_arg13 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x1600000 32) (main_arg2 : FVec F S128x64 .f32) (main_arg3 : FVec F S64 .f32) (main_arg4 : FVec F S64x32 .f32) (main_arg5 : FVec F S32 .f32) (main_arg6 : FVec F S32x16 .f32) (main_arg7 : FVec F S16 .f32) (main_arg8 : FVec F S16x8 .f32) (main_arg9 : FVec F S8 .f32) (main_arg10 : FVec F S8x4 .f32) (main_arg11 : FVec F S4 .f32) (main_arg12 : FVec F S4x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S3200x64 : Shape := ⟨2, ![3200, 64]⟩
abbrev S3200x1 : Shape := ⟨2, ![3200, 1]⟩
abbrev S3200x128 : Shape := ⟨2, ![3200, 128]⟩
abbrev S1x64 : Shape := ⟨2, ![1, 64]⟩
abbrev S3200x32 : Shape := ⟨2, ![3200, 32]⟩
abbrev S1x32 : Shape := ⟨2, ![1, 32]⟩
abbrev S3200x16 : Shape := ⟨2, ![3200, 16]⟩
abbrev S1x16 : Shape := ⟨2, ![1, 16]⟩
abbrev S3200x8 : Shape := ⟨2, ![3200, 8]⟩
abbrev S1x8 : Shape := ⟨2, ![1, 8]⟩
abbrev S3200x4 : Shape := ⟨2, ![3200, 4]⟩
abbrev S1x4 : Shape := ⟨2, ![1, 4]⟩
abbrev S1x1 : Shape := ⟨2, ![1, 1]⟩
abbrev S3200 : Shape := ⟨1, ![3200]⟩

abbrev nBuf : Space → Nat
  | .hbm => 39
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S8x4, .f32⟩
  | .hbm, ⟨11, _⟩ => ⟨S4, .f32⟩
  | .hbm, ⟨12, _⟩ => ⟨S4x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x1, .f32⟩
  | .hbm, ⟨37, _⟩ => ⟨S1600000x1, .f32⟩
  | .hbm, ⟨38, _⟩ => ⟨S1600000, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S128x64, .f32⟩
  | .local _ .vmem, ⟨5, _⟩ => ⟨S64, .f32⟩
  | .local _ .vmem, ⟨6, _⟩ => ⟨S64x32, .f32⟩
  | .local _ .vmem, ⟨7, _⟩ => ⟨S32, .f32⟩
  | .local _ .vmem, ⟨8, _⟩ => ⟨S32x16, .f32⟩
  | .local _ .vmem, ⟨9, _⟩ => ⟨S16, .f32⟩
  | .local _ .vmem, ⟨10, _⟩ => ⟨S16x8, .f32⟩
  | .local _ .vmem, ⟨11, _⟩ => ⟨S8, .f32⟩
  | .local _ .vmem, ⟨12, _⟩ => ⟨S8x4, .f32⟩
  | .local _ .vmem, ⟨13, _⟩ => ⟨S4, .f32⟩
  | .local _ .vmem, ⟨14, _⟩ => ⟨S4x1, .f32⟩
  | .local _ .vmem, ⟨15, _⟩ => ⟨S1, .f32⟩
  | .local _ .vmem, ⟨16, _⟩ => ⟨S3200x1, .f32⟩
  | .local _ .vmem, ⟨17, _⟩ => ⟨S3200x1, .f32⟩
  | .local _ .vmem, ⟨18, _⟩ => ⟨S3200x1, .f32⟩
  | .local _ .vmem, ⟨19, _⟩ => ⟨S3200x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3200x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3200x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  concatenates_S3200x64_S3200x64_S3200x128_d1 : Shape.Concatenates [S3200x64, S3200x64] S3200x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S3200x64 : S1x64.Broadcasts S3200x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S3200x32 : S1x32.Broadcasts S3200x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S3200x16 : S1x16.Broadcasts S3200x16
  inb_S16x8_S16x8_0_0 : ∀ a, (![0, 0] : Fin 2 → Nat) a + S16x8.size a ≤ S16x8.size a
  h_S16x8 : 0 < S16x8.numel
  inb_S8_S8_0 : ∀ a, (![0] : Fin 1 → Nat) a + S8.size a ≤ S8.size a
  h_S8 : 0 < S8.numel
  shapeCasts_S8_S1x8 : S8.ShapeCasts S1x8
  broadcasts_S1x8_S3200x8 : S1x8.Broadcasts S3200x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S3200x4 : S1x4.Broadcasts S3200x4
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  reduces_S3200x64_S3200 : S3200x64.Reduces [1] S3200
  shapeCasts_S3200_S3200x1 : S3200.ShapeCasts S3200x1
  shapeCasts_S1600000x1_S1600000 : S1600000x1.ShapeCasts S1600000
  gather_S50000x64_S1600000x1_S1600000x64_1_0_n_n_0_1_164_wf : GatherDims.WF S50000x64 S1600000x1 S1600000x64 [1] [0] [] [0] [] 1 ![1, 64]
  dot_S3200x128_S128x64_S3200x64_1_0_0_1_n_n_wf : DotDims.WF S3200x128 S128x64 S3200x64 [1] [0] [0] [1] [] []
  dot_S3200x64_S64x32_S3200x32_1_0_0_1_n_n_wf : DotDims.WF S3200x64 S64x32 S3200x32 [1] [0] [0] [1] [] []
  dot_S3200x32_S32x16_S3200x16_1_0_0_1_n_n_wf : DotDims.WF S3200x32 S32x16 S3200x16 [1] [0] [0] [1] [] []
  dot_S3200x16_S16x8_S3200x8_1_0_0_1_n_n_wf : DotDims.WF S3200x16 S16x8 S3200x8 [1] [0] [0] [1] [] []
  dot_S3200x8_S8x4_S3200x4_1_0_0_1_n_n_wf : DotDims.WF S3200x8 S8x4 S3200x4 [1] [0] [0] [1] [] []
  dot_S3200x4_S4x1_S3200x1_1_0_0_1_n_n_wf : DotDims.WF S3200x4 S4x1 S3200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S1600000x64.size a
  hwx0_0 : ∀ i : grid0.Coords, EltTy.bits .f32 = 32 ∨ (Rect.block (s := S1600000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S1600000x64.size a
  hwx0_1 : ∀ i : grid0.Coords, EltTy.bits .f32 = 32 ∨ (Rect.block (s := S1600000x64) S3200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x8.size a ≤ S16x8.size a
  hwx0_8 : ∀ i : grid0.Coords, EltTy.bits .f32 = 32 ∨ (Rect.block (s := S16x8) S16x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8.size a ≤ S8.size a
  hwx0_9 : ∀ i : grid0.Coords, EltTy.bits .f32 = 32 ∨ (Rect.block (s := S8) S8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x4.size a ≤ S8x4.size a
  hwx0_10 : ∀ i : grid0.Coords, EltTy.bits .f32 = 32 ∨ (Rect.block (s := S8x4) S8x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4.size a ≤ S4.size a
  hwx0_11 : ∀ i : grid0.Coords, EltTy.bits .f32 = 32 ∨ (Rect.block (s := S4) S4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x1.size a ≤ S4x1.size a
  hwx0_12 : ∀ i : grid0.Coords, EltTy.bits .f32 = 32 ∨ (Rect.block (s := S4x1) S4x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3200x1.size a ≤ S1600000x1.size a
  hwx0_14 : ∀ i : grid0.Coords, EltTy.bits .f32 = 32 ∨ (Rect.block (s := S1600000x1) S3200x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S3200x1.size a ≤ S1600000x1.size a
  hwx0_15 : ∀ i : grid0.Coords, EltTy.bits .f32 = 32 ∨ (Rect.block (s := S1600000x1) S3200x1.size (cc0_transform_15 i) (hinb0_15 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x64_S64x32_S3200x32_1_0_0_1_n_n : DotDims S3200x64 S64x32 S3200x32 where
  lhsContracting := [1]
  rhsContracting := [0]
  lhsNonContracting := [0]
  rhsNonContracting := [1]
  lhsBatch := []
  rhsBatch := []
  wf := dot_S3200x64_S64x32_S3200x32_1_0_0_1_n_n_wf
def dot_S3200x32_S32x16_S3200x16_1_0_0_1_n_n : DotDims S3200x32 S32x16 S3200x16 where
  lhsContracting := [1]
  rhsContracting := [0]
  lhsNonContracting := [0]
  rhsNonContracting := [1]
  lhsBatch := []
  rhsBatch := []
  wf := dot_S3200x32_S32x16_S3200x16_1_0_0_1_n_n_wf
def dot_S3200x16_S16x8_S3200x8_1_0_0_1_n_n : DotDims S3200x16 S16x8 S3200x8 where
  lhsContracting := [1]
  rhsContracting := [0]
  lhsNonContracting := [0]
  rhsNonContracting := [1]
  lhsBatch := []
  rhsBatch := []
  wf := dot_S3200x16_S16x8_S3200x8_1_0_0_1_n_n_wf
def dot_S3200x8_S8x4_S3200x4_1_0_0_1_n_n : DotDims S3200x8 S8x4 S3200x4 where
  lhsContracting := [1]
  rhsContracting := [0]
  lhsNonContracting := [0]
  rhsNonContracting := [1]
  lhsBatch := []
  rhsBatch := []
  wf := dot_S3200x8_S8x4_S3200x4_1_0_0_1_n_n_wf
def dot_S3200x4_S4x1_S3200x1_1_0_0_1_n_n : DotDims S3200x4 S4x1 S3200x1 where
  lhsContracting := [1]
  rhsContracting := [0]
  lhsNonContracting := [0]
  rhsNonContracting := [1]
  lhsBatch := []
  rhsBatch := []
  wf := dot_S3200x4_S4x1_S3200x1_1_0_0_1_n_n_wf

abbrev win0_0 : Pipeline.Window sig grid0 :=
  Pipeline.Window.ofSpec (Memref.whole main_v8) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18_0) S3200x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_1) S3200x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S1600000x32 : Shape := ⟨2, ![1600000, 32]⟩
abbrev S1x32 : Shape := ⟨2, ![1, 32]⟩
abbrev S1600000x16 : Shape := ⟨2, ![1600000, 16]⟩
abbrev S1x16 : Shape := ⟨2, ![1, 16]⟩
abbrev S1600000x8 : Shape := ⟨2, ![1600000, 8]⟩
abbrev S1x8 : Shape := ⟨2, ![1, 8]⟩
abbrev S1600000x4 : Shape := ⟨2, ![1600000, 4]⟩
abbrev S1x4 : Shape := ⟨2, ![1, 4]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S8x4, .f32⟩
  | .hbm, ⟨11, _⟩ => ⟨S4, .f32⟩
  | .hbm, ⟨12, _⟩ => ⟨S4x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x32, .f32⟩
  | .hbm, ⟨45, _⟩ => ⟨S1x32, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S1600000x32, .f32⟩
  | .hbm, ⟨50, _⟩ => ⟨S1600000x32, .f32⟩
  | .hbm, ⟨51, _⟩ => ⟨S1600000x16, .f32⟩
  | .hbm, ⟨52, _⟩ => ⟨S1x16, .f32⟩
  | .hbm, ⟨53, _⟩ => ⟨S1600000x16, .f32⟩
  | .hbm, ⟨54, _⟩ => ⟨S1600000x16, .f32⟩
  | .hbm, ⟨55, _⟩ => ⟨S_, .f32⟩
  | .hbm, ⟨56, _⟩ => ⟨S1600000x16, .f32⟩
  | .hbm, ⟨57, _⟩ => ⟨S1600000x16, .f32⟩
  | .hbm, ⟨58, _⟩ => ⟨S1600000x8, .f32⟩
  | .hbm, ⟨59, _⟩ => ⟨S1x8, .f32⟩
  | .hbm, ⟨60, _⟩ => ⟨S1600000x8, .f32⟩
  | .hbm, ⟨61, _⟩ => ⟨S1600000x8, .f32⟩
  | .hbm, ⟨62, _⟩ => ⟨S_, .f32⟩
  | .hbm, ⟨63, _⟩ => ⟨S1600000x8, .f32⟩
  | .hbm, ⟨64, _⟩ => ⟨S1600000x8, .f32⟩
  | .hbm, ⟨65, _⟩ => ⟨S1600000x4, .f32⟩
  | .hbm, ⟨66, _⟩ => ⟨S1x4, .f32⟩
  | .hbm, ⟨67, _⟩ => ⟨S1600000x4, .f32⟩
  | .hbm, ⟨68, _⟩ => ⟨S1600000x4, .f32⟩
  | .hbm, ⟨69, _⟩ => ⟨S_, .f32⟩
  | .hbm, ⟨70, _⟩ => ⟨S1600000x4, .f32⟩
  | .hbm, ⟨71, _⟩ => ⟨S1600000x4, .f32⟩
  | .hbm, ⟨72, _⟩ => ⟨S1600000x1, .f32⟩
  | .hbm, ⟨73, _⟩ => ⟨S1x1, .f32⟩
  | .hbm, ⟨74, _⟩ => ⟨S1600000x1, .f32⟩
  | .hbm, ⟨75, _⟩ => ⟨S1600000x1, .f32⟩
  | .hbm, ⟨76, _⟩ => ⟨S1600000x64, .f32⟩
  | .hbm, ⟨77, _⟩ => ⟨S_, .f32⟩
  | .hbm, ⟨78, _⟩ => ⟨S1600000, .f32⟩
  | .hbm, ⟨79, _⟩ => ⟨S1600000x64, .f32⟩
  | .hbm, ⟨80, _⟩ => ⟨S_, .f32⟩
  | .hbm, ⟨81, _⟩ => ⟨S1600000, .f32⟩
  | .hbm, ⟨82, _⟩ => ⟨S1600000, .f32⟩
  | .hbm, ⟨83, _⟩ => ⟨S_, .f32⟩
  | .hbm, ⟨84, _⟩ => ⟨S1600000, .f32⟩
  | .hbm, ⟨85, _⟩ => ⟨S1600000, .f32⟩
  | .hbm, ⟨86, _⟩ => ⟨S1600000x64, .f32⟩
  | .hbm, ⟨87, _⟩ => ⟨S_, .f32⟩
  | .hbm, ⟨88, _⟩ => ⟨S1600000, .f32⟩
  | .hbm, ⟨89, _⟩ => ⟨S1600000, .f32⟩
  | .hbm, ⟨90, _⟩ => ⟨S_, .f32⟩
  | .hbm, ⟨91, _⟩ => ⟨S1600000, .f32⟩
  | .hbm, ⟨92, _⟩ => ⟨S1600000, .f32⟩
  | .hbm, ⟨93, _⟩ => ⟨S1600000, .f32⟩
  | .hbm, ⟨94, _⟩ => ⟨S1600000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_cst : Ref sig .tc := ⟨.hbm, 62, rfl⟩
abbrev main_call3_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call4_cst : Ref sig .tc := ⟨.hbm, 69, rfl⟩
abbrev main_call4_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst : Ref sig .tc := ⟨.hbm, 77, rfl⟩
abbrev main_v49 : Ref sig .tc := ⟨.hbm, 78, rfl⟩
abbrev main_v50 : Ref sig .tc := ⟨.hbm, 79, rfl⟩
abbrev main_cst_3 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_5 : Ref sig .tc := ⟨.hbm, 87, rfl⟩
abbrev main_v56 : Ref sig .tc := ⟨.hbm, 88, rfl⟩
abbrev main_v57 : Ref sig .tc := ⟨.hbm, 89, rfl⟩
abbrev main_cst_6 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  bcast_S_S1600000x8 : S_.BroadcastsInDim S1600000x8 (![] : Fin 0 → Fin S1600000x8.rank)
  bcast_S4_S1x4_1 : S4.BroadcastsInDim S1x4 (![1] : Fin 1 → Fin S1x4.rank)
  bcast_S1x4_S1600000x4_0_1 : S1x4.BroadcastsInDim S1600000x4 (![0, 1] : Fin 2 → Fin S1600000x4.rank)
  bcast_S_S1600000x4 : S_.BroadcastsInDim S1600000x4 (![] : Fin 0 → Fin S1600000x4.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x64_S1600000_d1 : S1600000x64.ReducesTo [1] S1600000
  h_S_ : 0 < S_.numel
  gather_S50000x64_S1600000x1_S1600000x64_1_0_n_n_0_1_164_wf : GatherDims.WF S50000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x32_S1600000x32_1_0_0_1_n_n_wf : DotDims.WF S1600000x64 S64x32 S1600000x32 [1] [0] [0] [1] [] []
  dot_S1600000x32_S32x16_S1600000x16_1_0_0_1_n_n_wf : DotDims.WF S1600000x32 S32x16 S1600000x16 [1] [0] [0] [1] [] []
  dot_S1600000x16_S16x8_S1600000x8_1_0_0_1_n_n_wf : DotDims.WF S1600000x16 S16x8 S1600000x8 [1] [0] [0] [1] [] []
  dot_S1600000x8_S8x4_S1600000x4_1_0_0_1_n_n_wf : DotDims.WF S1600000x8 S8x4 S1600000x4 [1] [0] [0] [1] [] []
  dot_S1600000x4_S4x1_S1600000x1_1_0_0_1_n_n_wf : DotDims.WF S1600000x4 S4x1 S1600000x1 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x16_S1600000x16_1_0_0_1_n_n : DotDims S1600000x32 S32x16 S1600000x16 where
  lhsContracting := [1]
  rhsContracting := [0]
  lhsNonContracting := [0]
  rhsNonContracting := [1]
  lhsBatch := []
  rhsBatch := []
  wf := dot_S1600000x32_S32x16_S1600000x16_1_0_0_1_n_n_wf
def dot_S1600000x16_S16x8_S1600000x8_1_0_0_1_n_n : DotDims S1600000x16 S16x8 S1600000x8 where
  lhsContracting := [1]
  rhsContracting := [0]
  lhsNonContracting := [0]
  rhsNonContracting := [1]
  lhsBatch := []
  rhsBatch := []
  wf := dot_S1600000x16_S16x8_S1600000x8_1_0_0_1_n_n_wf
def dot_S1600000x8_S8x4_S1600000x4_1_0_0_1_n_n : DotDims S1600000x8 S8x4 S1600000x4 where
  lhsContracting := [1]
  rhsContracting := [0]
  lhsNonContracting := [0]
  rhsNonContracting := [1]
  lhsBatch := []
  rhsBatch := []
  wf := dot_S1600000x8_S8x4_S1600000x4_1_0_0_1_n_n_wf
def dot_S1600000x4_S4x1_S1600000x1_1_0_0_1_n_n : DotDims S1600000x4 S4x1 S1600000x1 where
  lhsContracting := [1]
  rhsContracting := [0]
  lhsNonContracting := [0]
  rhsNonContracting := [1]
  lhsBatch := []
  rhsBatch := []
  wf := dot_S1600000x4_S4x1_S1600000x1_1_0_0_1_n_n_wf

class Facts : Prop extends Facts₀ where

variable [Facts]
-- ==== Proof.Spec.lean ====
/-
  The mathematics of the certificate, over plain rows of extended reals and with no program in sight.

  For an edge whose two endpoint feature rows are `a` and `b` (64 numbers each) the result is
    * a score: the joined row `a ++ b` (128 numbers) pushed through six affine layers
      128 → 64 → 32 → 16 → 8 → 4 → 1, each hidden layer clamped below at zero;
    * a cosine: `⟨a, b⟩ / (max ‖a‖ ε · max ‖b‖ ε)`, each norm the square root of a sum of squares,
      clamped below at the constant `ε` (the word both programs carry for it).
  Sums are finite sums over the row's coordinates on the extended reals, where `+` and `·` are
  commutative and associative, so neither the order of a sum nor the way an array of edges is cut
  into blocks of rows can be seen in these functions.
-/
import Idealize.ShloMosaic.PureOps.Ideal.Laws
import Idealize.ShloMosaic.Lib.ValueIdx

noncomputable section

namespace Cert.EdgeScore

open Idealize.ShloMosaic Idealize.ShloMosaic.ValueIdx

/-- The value of the all-zero f32 word: what a hidden layer is clamped at. -/
abbrev zeroWord : EReal := Ideal.ofBits .f32 0x00000000#32

/-- The value of the word both programs use for the norm's lower clamp `ε`. -/
abbrev epsWord : EReal := Ideal.ofBits .f32 0x322BCC77#32

/-- One affine layer on a row: `(h · W)_n + b_n`. -/
def affine {K N : ℕ} (W : Fin K → Fin N → EReal) (b : Fin N → EReal) (h : Fin K → EReal) : Fin N → EReal :=
  fun n => (∑ k : Fin K, h k * W k n) + b n

/-- A row clamped below at zero, coordinate by coordinate. -/
def clamp {N : ℕ} (v : Fin N → EReal) : Fin N → EReal := fun n => max (v n) zeroWord

/-- Two rows of 64 joined into one row of 128: first `a`, then `b`. -/
def join (a b : Fin 64 → EReal) : Fin 128 → EReal := fun k =>
  if h : k.val < 64 then a ⟨k.val, h⟩ else b ⟨k.val - 64, by have := k.isLt; omega⟩

/-- The six layers' weights and biases, as functions of plain coordinates. -/
structure Params where
  W1 : Fin 128 → Fin 64 → EReal
  b1 : Fin 64 → EReal
  W2 : Fin 64 → Fin 32 → EReal
  b2 : Fin 32 → EReal
  W3 : Fin 32 → Fin 16 → EReal
  b3 : Fin 16 → EReal
  W4 : Fin 16 → Fin 8 → EReal
  b4 : Fin 8 → EReal
  W5 : Fin 8 → Fin 4 → EReal
  b5 : Fin 4 → EReal
  W6 : Fin 4 → Fin 1 → EReal
  b6 : Fin 1 → EReal

/-- The hidden rows, layer by layer, of the edge whose endpoint rows are `a` and `b`. -/
def hidden1 (P : Params) (a b : Fin 64 → EReal) : Fin 64 → EReal := clamp (affine P.W1 P.b1 (join a b))
def hidden2 (P : Params) (a b : Fin 64 → EReal) : Fin 32 → EReal := clamp (affine P.W2 P.b2 (hidden1 P a b))
def hidden3 (P : Params) (a b : Fin 64 → EReal) : Fin 16 → EReal := clamp (affine P.W3 P.b3 (hidden2 P a b))
def hidden4 (P : Params) (a b : Fin 64 → EReal) : Fin 8 → EReal := clamp (affine P.W4 P.b4 (hidden3 P a b))
def hidden5 (P : Params) (a b : Fin 64 → EReal) : Fin 4 → EReal := clamp (affine P.W5 P.b5 (hidden4 P a b))

/-- The edge's score: the last layer, affine with no clamp, of the fifth hidden row. -/
def score (P : Params) (a b : Fin 64 → EReal) : Fin 1 → EReal := affine P.W6 P.b6 (hidden5 P a b)

/-- A row's norm, clamped below at `ε`. -/
def normClamped (a : Fin 64 → EReal) : EReal := max (Ideal.sqrt (∑ k : Fin 64, a k * a k)) epsWord

/-- The cosine of the two endpoint rows, each norm clamped below at `ε`. -/
def cosine (a b : Fin 64 → EReal) : EReal :=
  Ideal.div (∑ k : Fin 64, a k * b k) (normClamped a * normClamped b)

/-! ## The same over arrays of literal shapes -/

/-- Row `r` of an array of `R` rows of 64. -/
def row {R : ℕ} (x : (⟨2, ![R, 64]⟩ : Shape).Idx → EReal) (r : Fin R) : Fin 64 → EReal := fun k => x (ix2 r k)

/-- The parameters read off the six weight matrices and six bias vectors. -/
def params (w1 : (⟨2, ![128, 64]⟩ : Shape).Idx → EReal) (c1 : (⟨1, ![64]⟩ : Shape).Idx → EReal)
    (w2 : (⟨2, ![64, 32]⟩ : Shape).Idx → EReal) (c2 : (⟨1, ![32]⟩ : Shape).Idx → EReal)
    (w3 : (⟨2, ![32, 16]⟩ : Shape).Idx → EReal) (c3 : (⟨1, ![16]⟩ : Shape).Idx → EReal)
    (w4 : (⟨2, ![16, 8]⟩ : Shape).Idx → EReal) (c4 : (⟨1, ![8]⟩ : Shape).Idx → EReal)
    (w5 : (⟨2, ![8, 4]⟩ : Shape).Idx → EReal) (c5 : (⟨1, ![4]⟩ : Shape).Idx → EReal)
    (w6 : (⟨2, ![4, 1]⟩ : Shape).Idx → EReal) (c6 : (⟨1, ![1]⟩ : Shape).Idx → EReal) : Params where
  W1 k n := w1 (ix2 k n)
  b1 n := c1 (ix1 n)
  W2 k n := w2 (ix2 k n)
  b2 n := c2 (ix1 n)
  W3 k n := w3 (ix2 k n)
  b3 n := c3 (ix1 n)
  W4 k n := w4 (ix2 k n)
  b4 n := c4 (ix1 n)
  W5 k n := w5 (ix2 k n)
  b5 n := c5 (ix1 n)
  W6 k n := w6 (ix2 k n)
  b6 n := c6 (ix1 n)

/-- Every edge's score, as a column: entry `(r, 0)` is the score of rows `r` of the two gathered arrays. -/
def scoreArr (P : Params) (xi xj : (⟨2, ![1600000, 64]⟩ : Shape).Idx → EReal) :
    (⟨2, ![1600000, 1]⟩ : Shape).Idx → EReal := fun i =>
  score P (row xi (⟨(i 0).val, (i 0).isLt⟩ : Fin 1600000)) (row xj (⟨(i 0).val, (i 0).isLt⟩ : Fin 1600000))
    (⟨(i 1).val, (i 1).isLt⟩ : Fin 1)

/-- Every edge's cosine, as a column. -/
def cosCol (xi xj : (⟨2, ![1600000, 64]⟩ : Shape).Idx → EReal) :
    (⟨2, ![1600000, 1]⟩ : Shape).Idx → EReal := fun i =>
  cosine (row xi (⟨(i 0).val, (i 0).isLt⟩ : Fin 1600000)) (row xj (⟨(i 0).val, (i 0).isLt⟩ : Fin 1600000))

/-- Every edge's cosine, as a vector. -/
def cosVec (xi xj : (⟨2, ![1600000, 64]⟩ : Shape).Idx → EReal) :
    (⟨1, ![1600000]⟩ : Shape).Idx → EReal := fun i =>
  cosine (row xi (⟨(i 0).val, (i 0).isLt⟩ : Fin 1600000)) (row xj (⟨(i 0).val, (i 0).isLt⟩ : Fin 1600000))

end Cert.EdgeScore

end
-- ==== Proof.RefValue.lean ====
/-
  The reference, read at one edge. Row `r` of every intermediate array of the reference depends only on rows `r`
  of the two gathered endpoint arrays: the joined array's row is the two rows joined; a matrix product's row is the
  row times the weight matrix, a finite sum over the contracted coordinate; the bias is added coordinate by
  coordinate and the hidden layers are clamped at zero. So the reference's score column is the six-layer score of
  the two rows, and its cosine vector the cosine of the two rows, whatever the gathered arrays hold.
-/
import proofs.«125644_j15693810500067_1_alg».proof.Proof.Gen.ReferenceIdeal.Read
import proofs.«125644_j15693810500067_1_alg».proof.Proof.Spec
import Idealize.ShloMosaic.Lib.Pipeline.Value

noncomputable section

namespace Cert.ReferenceIdeal.RefValue

open Cert.ReferenceIdeal Cert.ReferenceIdeal.Gen Cert.ReferenceIdeal.Read Cert.EdgeScore
open Idealize.ShloMosaic Idealize.ShloMosaic.TcCoe Idealize.ShloMosaic.ValueIdx Idealize.SL.Sem Idealize.ShloMosaic.StableHlo

variable (x0 : (⟨S50000x64, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
  (x6 : (⟨S32x16, .f32⟩ : BufTy).Contents (Elt Ideal)) (x7 : (⟨S16, .f32⟩ : BufTy).Contents (Elt Ideal))
  (x8 : (⟨S16x8, .f32⟩ : BufTy).Contents (Elt Ideal)) (x9 : (⟨S8, .f32⟩ : BufTy).Contents (Elt Ideal))
  (x10 : (⟨S8x4, .f32⟩ : BufTy).Contents (Elt Ideal)) (x11 : (⟨S4, .f32⟩ : BufTy).Contents (Elt Ideal))
  (x12 : (⟨S4x1, .f32⟩ : BufTy).Contents (Elt Ideal)) (x13 : (⟨S1, .f32⟩ : BufTy).Contents (Elt Ideal))

/-- The joined array at `(r, k)` is coordinate `k` of the two gathered rows `r` joined. -/
theorem joined_at (r : Fin 1600000) (k : Fin 128) :
    val_main_v18 (F := Ideal) x0 x1 (ix2 r k)
      = join (row (val_main_v8 (F := Ideal) x0 x1) r) (row (val_main_v17 (F := Ideal) x0 x1) r) k := by
  unfold val_main_v18 join row
  generalize val_main_v8 (F := Ideal) x0 x1 = a
  generalize val_main_v17 (F := Ideal) x0 x1 = b
  by_cases h : k.val < 64
  · rw [dif_pos h]
    exact concatenate_pair_apply_left 1 a b concatenates_S1600000x64_S1600000x64_S1600000x128_d1 (ix2 r k) rfl
      (ix2 r (⟨k.val, h⟩ : Fin 64)) (fun d => by match d with | ⟨0, _⟩ => rfl | ⟨1, _⟩ => rfl)
  · rw [dif_neg h]
    exact concatenate_pair_apply_right 1 a b concatenates_S1600000x64_S1600000x64_S1600000x128_d1 (ix2 r k) rfl rfl
      (ix2 r (⟨k.val - 64, by have := k.isLt; omega⟩ : Fin 64))
      (fun d hd => by match d with | ⟨0, _⟩ => rfl | ⟨1, _⟩ => exact absurd rfl hd)
      (by show (k.val - 64) + 64 = k.val; omega)

/-- Hidden row 1 at `(r, n)`: the previous row through one affine layer, clamped at zero. -/
theorem v23_at (r : Fin 1600000) (n : Fin 64) :
    val_main_v23 (F := Ideal) x0 x1 x2 x3 (ix2 r n)
      = clamp (affine (fun k n => x2 (ix2 k n)) (fun n => x3 (ix1 n)) (fun k : Fin 128 => val_main_v18 (F := Ideal) x0 x1 (ix2 r k))) n := by
  rw [val_main_v23_apply, val_main_v22_apply, val_main_v19_apply, val_main_v21_apply, val_main_v20_apply,
    val_main_call0_v0_apply, val_main_call0_cst_apply]
  have el : ∀ k : Fin 128, lidx_main_v19 (ix2 r n) k = ix2 r k := fun k => funext fun a => Fin.ext (by match a with | ⟨0, _⟩ => rfl | ⟨1, _⟩ => rfl)
  have er : ∀ k : Fin 128, ridx_main_v19 (ix2 r n) k = ix2 k n := fun k => funext fun a => Fin.ext (by match a with | ⟨0, _⟩ => rfl | ⟨1, _⟩ => rfl)
  have eb : idx_main_v20 (idx_main_v21 (ix2 r n)) = ix1 n := funext fun a => Fin.ext (by match a with | ⟨0, _⟩ => rfl)
  simp only [el, er, eb]
  rfl

/-- Hidden row 2 at `(r, n)`: the previous row through one affine layer, clamped at zero. -/
theorem v28_at (r : Fin 1600000) (n : Fin 32) :
    val_main_v28 (F := Ideal) x0 x1 x2 x3 x4 x5 (ix2 r n)
      = clamp (affine (fun k n => x4 (ix2 k n)) (fun n => x5 (ix1 n)) (fun k : Fin 64 => val_main_v23 (F := Ideal) x0 x1 x2 x3 (ix2 r k))) n := by
  rw [val_main_v28_apply, val_main_v27_apply, val_main_v24_apply, val_main_v26_apply, val_main_v25_apply,
    val_main_call1_v0_apply, val_main_call1_cst_apply]
  have el : ∀ k : Fin 64, lidx_main_v24 (ix2 r n) k = ix2 r k := fun k => funext fun a => Fin.ext (by match a with | ⟨0, _⟩ => rfl | ⟨1, _⟩ => rfl)
  have er : ∀ k : Fin 64, ridx_main_v24 (ix2 r n) k = ix2 k n := fun k => funext fun a => Fin.ext (by match a with | ⟨0, _⟩ => rfl | ⟨1, _⟩ => rfl)
  have eb : idx_main_v25 (idx_main_v26 (ix2 r n)) = ix1 n := funext fun a => Fin.ext (by match a with | ⟨0, _⟩ => rfl)
  simp only [el, er, eb]
  rfl

/-- Hidden row 3 at `(r, n)`: the previous row through one affine layer, clamped at zero. -/
theorem v33_at (r : Fin 1600000) (n : Fin 16) :
    val_main_v33 (F := Ideal) x0 x1 x2 x3 x4 x5 x6 x7 (ix2 r n)
      = clamp (affine (fun k n => x6 (ix2 k n)) (fun n => x7 (ix1 n)) (fun k : Fin 32 => val_main_v28 (F := Ideal) x0 x1 x2 x3 x4 x5 (ix2 r k))) n := by
  rw [val_main_v33_apply, val_main_v32_apply, val_main_v29_apply, val_main_v31_apply, val_main_v30_apply,
    val_main_call2_v0_apply, val_main_call2_cst_apply]
  have el : ∀ k : Fin 32, lidx_main_v29 (ix2 r n) k = ix2 r k := fun k => funext fun a => Fin.ext (by match a with | ⟨0, _⟩ => rfl | ⟨1, _⟩ => rfl)
  have er : ∀ k : Fin 32, ridx_main_v29 (ix2 r n) k = ix2 k n := fun k => funext fun a => Fin.ext (by match a with | ⟨0, _⟩ => rfl | ⟨1, _⟩ => rfl)
  have eb : idx_main_v30 (idx_main_v31 (ix2 r n)) = ix1 n := funext fun a => Fin.ext (by match a with | ⟨0, _⟩ => rfl)
  simp only [el, er, eb]
  rfl

/-- Hidden row 4 at `(r, n)`: the previous row through one affine layer, clamped at zero. -/
theorem v38_at (r : Fin 1600000) (n : Fin 8) :
    val_main_v38 (F := Ideal) x0 x1 x2 x3 x4 x5 x6 x7 x8 x9 (ix2 r n)
      = clamp (affine (fun k n => x8 (ix2 k n)) (fun n => x9 (ix1 n)) (fun k : Fin 16 => val_main_v33 (F := Ideal) x0 x1 x2 x3 x4 x5 x6 x7 (ix2 r k))) n := by
  rw [val_main_v38_apply, val_main_v37_apply, val_main_v34_apply, val_main_v36_apply, val_main_v35_apply,
    val_main_call3_v0_apply, val_main_call3_cst_apply]
  have el : ∀ k : Fin 16, lidx_main_v34 (ix2 r n) k = ix2 r k := fun k => funext fun a => Fin.ext (by match a with | ⟨0, _⟩ => rfl | ⟨1, _⟩ => rfl)
  have er : ∀ k : Fin 16, ridx_main_v34 (ix2 r n) k = ix2 k n := fun k => funext fun a => Fin.ext (by match a with | ⟨0, _⟩ => rfl | ⟨1, _⟩ => rfl)
  have eb : idx_main_v35 (idx_main_v36 (ix2 r n)) = ix1 n := funext fun a => Fin.ext (by match a with | ⟨0, _⟩ => rfl)
  simp only [el, er, eb]
  rfl

/-- Hidden row 5 at `(r, n)`: the previous row through one affine layer, clamped at zero. -/
theorem v43_at (r : Fin 1600000) (n : Fin 4) :
    val_main_v43 (F := Ideal) x0 x1 x2 x3 x4 x5 x6 x7 x8 x9 x10 x11 (ix2 r n)
      = clamp (affine (fun k n => x10 (ix2 k n)) (fun n => x11 (ix1 n)) (fun k : Fin 8 => val_main_v38 (F := Ideal) x0 x1 x2 x3 x4 x5 x6 x7 x8 x9 (ix2 r k))) n := by
  rw [val_main_v43_apply, val_main_v42_apply, val_main_v39_apply, val_main_v41_apply, val_main_v40_apply,
    val_main_call4_v0_apply, val_main_call4_cst_apply]
  have el : ∀ k : Fin 8, lidx_main_v39 (ix2 r n) k = ix2 r k := fun k => funext fun a => Fin.ext (by match a with | ⟨0, _⟩ => rfl | ⟨1, _⟩ => rfl)
  have er : ∀ k : Fin 8, ridx_main_v39 (ix2 r n) k = ix2 k n := fun k => funext fun a => Fin.ext (by match a with | ⟨0, _⟩ => rfl | ⟨1, _⟩ => rfl)
  have eb : idx_main_v40 (idx_main_v41 (ix2 r n)) = ix1 n := funext fun a => Fin.ext (by match a with | ⟨0, _⟩ => rfl)
  simp only [el, er, eb]
  rfl

/-- The last layer at `(r, q)`: affine, no clamp. -/
theorem v47_at (r : Fin 1600000) (q : Fin 1) :
    val_main_v47 (F := Ideal) x0 x1 x2 x3 x4 x5 x6 x7 x8 x9 x10 x11 x12 x13 (ix2 r q)
      = affine (fun k n => x12 (ix2 k n)) (fun n => x13 (ix1 n))
          (fun k : Fin 4 => val_main_v43 (F := Ideal) x0 x1 x2 x3 x4 x5 x6 x7 x8 x9 x10 x11 (ix2 r k)) q := by
  rw [val_main_v47_apply, val_main_v44_apply, val_main_v46_apply, val_main_v45_apply]
  have el : ∀ k : Fin 4, lidx_main_v44 (ix2 r q) k = ix2 r k := fun k => funext fun a => Fin.ext (by match a with | ⟨0, _⟩ => rfl | ⟨1, _⟩ => rfl)
  have er : ∀ k : Fin 4, ridx_main_v44 (ix2 r q) k = ix2 k q := fun k => funext fun a => Fin.ext (by match a with | ⟨0, _⟩ => rfl | ⟨1, _⟩ => rfl)
  have eb : idx_main_v45 (idx_main_v46 (ix2 r q)) = ix1 q := funext fun a => Fin.ext (by
    match a with | ⟨0, _⟩ => exact (Nat.lt_one_iff.mp q.isLt).symm)
  simp only [el, er, eb]
  rfl

/-- THE REFERENCE'S SCORE COLUMN is the six-layer score of the two gathered rows, edge by edge. -/
theorem score_eq :
    val_main_v47 (F := Ideal) x0 x1 x2 x3 x4 x5 x6 x7 x8 x9 x10 x11 x12 x13
      = scoreArr (params x2 x3 x4 x5 x6 x7 x8 x9 x10 x11 x12 x13)
          (val_main_v8 (F := Ideal) x0 x1) (val_main_v17 (F := Ideal) x0 x1) := by
  funext i
  obtain ⟨r, q, rfl⟩ : ∃ (r : Fin 1600000) (q : Fin 1), i = ix2 r q := ⟨i 0, i 1, eq_ix2 i⟩
  rw [v47_at]
  simp only [v43_at, v38_at, v33_at, v28_at, v23_at, joined_at]
  rfl

/-- THE REFERENCE'S COSINE VECTOR is the cosine of the two gathered rows, edge by edge. -/
theorem cos_eq :
    val_main_v61 (F := Ideal) x0 x1
      = cosVec (val_main_v8 (F := Ideal) x0 x1) (val_main_v17 (F := Ideal) x0 x1) := by
  funext i
  obtain ⟨r, rfl⟩ : ∃ r : Fin 1600000, i = ix1 r := ⟨i 0, eq_ix1 i⟩
  rw [val_main_v61_apply, val_main_v49_apply, val_main_v60_apply, val_main_v54_apply, val_main_v59_apply,
    val_main_v52_apply, val_main_v57_apply, val_main_v51_apply, val_main_v56_apply, val_main_v53_apply, val_main_v58_apply]
  have e49 : ∀ k : Fin 64, idx_main_v49 (ix1 r) k = ix2 r k := fun k => funext fun a => Fin.ext (by match a with | ⟨0, _⟩ => rfl | ⟨1, _⟩ => rfl)
  have e51 : ∀ k : Fin 64, idx_main_v51 (ix1 r) k = ix2 r k := fun k => funext fun a => Fin.ext (by match a with | ⟨0, _⟩ => rfl | ⟨1, _⟩ => rfl)
  have e56 : ∀ k : Fin 64, idx_main_v56 (ix1 r) k = ix2 r k := fun k => funext fun a => Fin.ext (by match a with | ⟨0, _⟩ => rfl | ⟨1, _⟩ => rfl)
  simp only [e49, e51, e56, val_main_v48_apply, val_main_v50_apply, val_main_v55_apply, val_main_cst_apply,
    val_main_cst_3_apply, val_main_cst_4_apply, val_main_cst_5_apply, val_main_cst_6_apply, Ideal.ofBits_def,
    Ideal.ofBits_zero_f32, zero_add]
  rfl

end Cert.ReferenceIdeal.RefValue

end
-- ==== Proof.LibColumnCast.lean ====
/-
  A layout step: a vector cast to a column.

  A vector of `a` numbers and a column of shape `[a, 1]` list the same numbers in the same row-major order, so the
  cast reads, at `(i, u)`, the vector's entry `i` (the unit coordinate `u` can only be `0`). This is the cast a sum
  along the last axis with the reduced axis kept ends with. Generic in the length; it imports the library only.
-/
import Idealize.ShloMosaic.Lib.Pipeline.Value
import Idealize.ShloMosaic.Lib.ValueIdx

namespace Cert.LibColumnCast

open Idealize.ShloMosaic Idealize.ShloMosaic.ValueIdx

/-- A vector of `a` numbers cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelPayload.lean ====
/-
  The kernel's body, read at one edge of a block. A block holds 3200 consecutive edges: rows `p` of the two
  endpoint blocks are the two endpoint rows of the block's edge `p`. Row `p` of everything the body computes
  depends on those two rows and the weights only: the joined block's row is the two rows joined; a matrix product
  into a zero accumulator has, at `(p, n)`, the sum over the contracted coordinate `k` of `h(p, k) · w(k, n)`;
  the bias row is broadcast down the block; a change of float format is the identity on the extended reals; a
  lane sum at `p` is the sum over the row's 64 coordinates. So the score the body stores at `(p, 0)` is the
  six-layer score of the two rows, and the cosine it stores there is their cosine.
-/
import proofs.«125644_j15693810500067_1_alg».proof.Proof.Gen.KernelIdeal.Skeleton
import proofs.«125644_j15693810500067_1_alg».proof.Proof.Spec
import proofs.«125644_j15693810500067_1_alg».proof.Proof.LibColumnCast
import Idealize.ShloMosaic.Lib.Pipeline.Value
import Idealize.ShloMosaic.Lib.ValueLayout

noncomputable section

namespace Cert.KernelIdeal.BlockValue

open Cert.KernelIdeal Cert.KernelIdeal.Gen Cert.EdgeScore Cert.LibColumnCast
open Idealize.ShloMosaic Idealize.ShloMosaic.TcCoe Idealize.ShloMosaic.ValueIdx Idealize.SL.Sem

/-! ## Layout steps the body uses -/

/-- A lane sum of a `[3200, 64]` block at row `p` is the sum of the row's 64 entries. -/
theorem rowsum_at (v : FVec Ideal S3200x64 .f32) (p : Fin 3200) :
    multiReduction .add [1] S3200 v 0x00000000#32 reduces_S3200x64_S3200 (.inl rfl) rfl (ix1 p)
      = ∑ k : Fin 64, v (ix2 p k) :=
  (Ideal.multiReduction_add_single v 0x00000000#32 reduces_S3200x64_S3200 (.inl rfl) rfl (ix1 p)).trans
    (Finset.sum_congr rfl fun k _ => congrArg v (funext fun a => Fin.ext (by
      match a with
      | ⟨0, _⟩ => rfl
      | ⟨1, _⟩ => rfl)))

/-- The same after the keep-dimension cast to a column. -/
theorem rowsum_col_at (v : FVec Ideal S3200x64 .f32) (p : Fin 3200) (q : Fin 1) :
    shapeCast S3200x1 (multiReduction .add [1] S3200 v 0x00000000#32 reduces_S3200x64_S3200 (.inl rfl) rfl)
        shapeCasts_S3200_S3200x1 (ix2 p q)
      = ∑ k : Fin 64, v (ix2 p k) :=
  (shapeCast_a_a1_apply _ shapeCasts_S3200_S3200x1 p q).trans (rowsum_at v p)

/-- The joined block at `(p, k)` is coordinate `k` of the two rows `p` joined. -/
theorem joined_at (x0 x1 : Vec Ideal S3200x64 .f32) (p : Fin 3200) (k : Fin 128) :
    concatenate S3200x128 1 [⟨S3200x64, k0_pay2 x0⟩, ⟨S3200x64, k0_pay3 x1⟩] concatenates_S3200x64_S3200x64_S3200x128_d1 (ix2 p k)
      = join (row x0 p) (row x1 p) k := by
  unfold k0_pay2 k0_pay3
  try dsimp only
  rw [shapeCast_self, shapeCast_self]
  unfold join row
  by_cases h : k.val < 64
  · rw [dif_pos h]
    exact concatenate_pair_apply_left 1 x0 x1 concatenates_S3200x64_S3200x64_S3200x128_d1 (ix2 p k) rfl
      (ix2 p (⟨k.val, h⟩ : Fin 64)) (fun d => by match d with | ⟨0, _⟩ => rfl | ⟨1, _⟩ => rfl)
  · rw [dif_neg h]
    exact concatenate_pair_apply_right 1 x0 x1 concatenates_S3200x64_S3200x64_S3200x128_d1 (ix2 p k) rfl rfl
      (ix2 p (⟨k.val - 64, by have := k.isLt; omega⟩ : Fin 64))
      (fun d hd => by match d with | ⟨0, _⟩ => rfl | ⟨1, _⟩ => exact absurd rfl hd)
      (by show (k.val - 64) + 64 = k.val; omega)

/-! ## The six matrix products, each read at `(p, n)` -/

theorem lhs1_0 (i : S3200x64.Idx) (q : dot_S3200x128_S128x64_S3200x64_1_0_0_1_n_n.contr.Idx) :
    (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
theorem lhs1_1 (i : S3200x64.Idx) (q : dot_S3200x128_S128x64_S3200x64_1_0_0_1_n_n.contr.Idx) :
    (dot_S3200x128_S128x64_S3200x64_1_0_0_1_n_n.lhsIdx i q 1).val = (q ⟨0, by decide⟩).val :=
  dot_S3200x128_S128x64_S3200x64_1_0_0_1_n_n.lhsIdx_val_of_single rfl i q
theorem rhs1_0 (i : S3200x64.Idx) (q : dot_S3200x128_S128x64_S3200x64_1_0_0_1_n_n.contr.Idx) :
    (dot_S3200x128_S128x64_S3200x64_1_0_0_1_n_n.rhsIdx i q 0).val = (q ⟨0, by decide⟩).val :=
  dot_S3200x128_S128x64_S3200x64_1_0_0_1_n_n.rhsIdx_val_of_single rfl i q
theorem rhs1_1 (i : S3200x64.Idx) (q : dot_S3200x128_S128x64_S3200x64_1_0_0_1_n_n.contr.Idx) :
    (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl

/-- Product 1 into the zero accumulator at `(p, n)`: the sum over `k` of `h(p, k) · w(k, n)`. -/
theorem product1_at (h : FVec Ideal S3200x128 .bf16) (w : FVec Ideal S128x64 .bf16) (p : Fin 3200) (n : Fin 64) :
    matmul dot_S3200x128_S128x64_S3200x64_1_0_0_1_n_n none h w (constant (F := Ideal) S3200x64 .f32 0x00000000#32) (ix2 p n)
      = ∑ k : Fin 128, h (ix2 p k) * w (ix2 k n) := by
  simp only [matmul]
  rw [Ideal.matmul_constant_zero_apply, ← Equiv.sum_comp (ValueIdx.contrEquiv1 dot_S3200x128_S128x64_S3200x64_1_0_0_1_n_n 128 rfl rfl).symm]
  refine Finset.sum_congr rfl fun k _ => ?_
  have hk := ValueIdx.contrEquiv1_symm_val dot_S3200x128_S128x64_S3200x64_1_0_0_1_n_n 128 rfl rfl k
  have el : dot_S3200x128_S128x64_S3200x64_1_0_0_1_n_n.lhsIdx (ix2 p n) ((ValueIdx.contrEquiv1 dot_S3200x128_S128x64_S3200x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S3200x128_S128x64_S3200x64_1_0_0_1_n_n.rhsIdx (ix2 p n) ((ValueIdx.contrEquiv1 dot_S3200x128_S128x64_S3200x64_1_0_0_1_n_n 128 rfl rfl).symm k) = ix2 k n := funext fun a => Fin.ext (by
    match a with
    | ⟨0, _⟩ => exact (rhs1_0 _ _).trans hk
    | ⟨1, _⟩ => exact rhs1_1 _ _)
  rw [el, er]

/-- Layer 1 at `(p, n)`: product, bias row, clamp at zero — one affine layer of row `p`, clamped. -/
theorem layer1_at (h : FVec Ideal S3200x128 .bf16) (w : FVec Ideal S128x64 .bf16) (b : Vec Ideal S64 .f32) (p : Fin 3200) (n : Fin 64) :
    maximumf (addf (matmul dot_S3200x128_S128x64_S3200x64_1_0_0_1_n_n none h w (constant (F := Ideal) S3200x64 .f32 0x00000000#32))
        (broadcastTo S3200x64 (shapeCast S1x64 b shapeCasts_S64_S1x64) broadcasts_S1x64_S3200x64))
      (broadcast S3200x64 (Scalar.ofBits (F := Ideal) .f32 0x00000000#32)) (ix2 p n)
      = clamp (affine (fun k n => w (ix2 k n)) (fun n => b (ix1 n)) (fun k : Fin 128 => h (ix2 p k))) n := by
  rw [maximumf_apply, addf_apply, product1_at, broadcastTo_1b_ab_apply, shapeCast_a_1a_apply]
  rfl

theorem lhs2_0 (i : S3200x32.Idx) (q : dot_S3200x64_S64x32_S3200x32_1_0_0_1_n_n.contr.Idx) :
    (dot_S3200x64_S64x32_S3200x32_1_0_0_1_n_n.lhsIdx i q 0).val = (i 0).val := by
  unfold DotDims.lhsIdx
  rw [dif_neg (show ¬(0 : Fin S3200x64.rank) ∈ dot_S3200x64_S64x32_S3200x32_1_0_0_1_n_n.lhsBatch by decide), dif_pos (show (0 : Fin S3200x64.rank) ∈ dot_S3200x64_S64x32_S3200x32_1_0_0_1_n_n.lhsNonContracting by decide)]
  rfl
theorem lhs2_1 (i : S3200x32.Idx) (q : dot_S3200x64_S64x32_S3200x32_1_0_0_1_n_n.contr.Idx) :
    (dot_S3200x64_S64x32_S3200x32_1_0_0_1_n_n.lhsIdx i q 1).val = (q ⟨0, by decide⟩).val :=
  dot_S3200x64_S64x32_S3200x32_1_0_0_1_n_n.lhsIdx_val_of_single rfl i q
theorem rhs2_0 (i : S3200x32.Idx) (q : dot_S3200x64_S64x32_S3200x32_1_0_0_1_n_n.contr.Idx) :
    (dot_S3200x64_S64x32_S3200x32_1_0_0_1_n_n.rhsIdx i q 0).val = (q ⟨0, by decide⟩).val :=
  dot_S3200x64_S64x32_S3200x32_1_0_0_1_n_n.rhsIdx_val_of_single rfl i q
theorem rhs2_1 (i : S3200x32.Idx) (q : dot_S3200x64_S64x32_S3200x32_1_0_0_1_n_n.contr.Idx) :
    (dot_S3200x64_S64x32_S3200x32_1_0_0_1_n_n.rhsIdx i q 1).val = (i 1).val := by
  unfold DotDims.rhsIdx
  rw [dif_neg (show ¬(1 : Fin S64x32.rank) ∈ dot_S3200x64_S64x32_S3200x32_1_0_0_1_n_n.rhsBatch by decide), dif_pos (show (1 : Fin S64x32.rank) ∈ dot_S3200x64_S64x32_S3200x32_1_0_0_1_n_n.rhsNonContracting by decide)]
  rfl

/-- Product 2 into the zero accumulator at `(p, n)`: the sum over `k` of `h(p, k) · w(k, n)`. -/
theorem product2_at (h : FVec Ideal S3200x64 .bf16) (w : FVec Ideal S64x32 .bf16) (p : Fin 3200) (n : Fin 32) :
    matmul dot_S3200x64_S64x32_S3200x32_1_0_0_1_n_n none h w (constant (F := Ideal) S3200x32 .f32 0x00000000#32) (ix2 p n)
      = ∑ k : Fin 64, h (ix2 p k) * w (ix2 k n) := by
  simp only [matmul]
  rw [Ideal.matmul_constant_zero_apply, ← Equiv.sum_comp (ValueIdx.contrEquiv1 dot_S3200x64_S64x32_S3200x32_1_0_0_1_n_n 64 rfl rfl).symm]
  refine Finset.sum_congr rfl fun k _ => ?_
  have hk := ValueIdx.contrEquiv1_symm_val dot_S3200x64_S64x32_S3200x32_1_0_0_1_n_n 64 rfl rfl k
  have el : dot_S3200x64_S64x32_S3200x32_1_0_0_1_n_n.lhsIdx (ix2 p n) ((ValueIdx.contrEquiv1 dot_S3200x64_S64x32_S3200x32_1_0_0_1_n_n 64 rfl rfl).symm k) = ix2 p k := funext fun a => Fin.ext (by
    match a with
    | ⟨0, _⟩ => exact lhs2_0 _ _
    | ⟨1, _⟩ => exact (lhs2_1 _ _).trans hk)
  have er : dot_S3200x64_S64x32_S3200x32_1_0_0_1_n_n.rhsIdx (ix2 p n) ((ValueIdx.contrEquiv1 dot_S3200x64_S64x32_S3200x32_1_0_0_1_n_n 64 rfl rfl).symm k) = ix2 k n := funext fun a => Fin.ext (by
    match a with
    | ⟨0, _⟩ => exact (rhs2_0 _ _).trans hk
    | ⟨1, _⟩ => exact rhs2_1 _ _)
  rw [el, er]

/-- Layer 2 at `(p, n)`: product, bias row, clamp at zero — one affine layer of row `p`, clamped. -/
theorem layer2_at (h : FVec Ideal S3200x64 .bf16) (w : FVec Ideal S64x32 .bf16) (b : Vec Ideal S32 .f32) (p : Fin 3200) (n : Fin 32) :
    maximumf (addf (matmul dot_S3200x64_S64x32_S3200x32_1_0_0_1_n_n none h w (constant (F := Ideal) S3200x32 .f32 0x00000000#32))
        (broadcastTo S3200x32 (shapeCast S1x32 b shapeCasts_S32_S1x32) broadcasts_S1x32_S3200x32))
      (broadcast S3200x32 (Scalar.ofBits (F := Ideal) .f32 0x00000000#32)) (ix2 p n)
      = clamp (affine (fun k n => w (ix2 k n)) (fun n => b (ix1 n)) (fun k : Fin 64 => h (ix2 p k))) n := by
  rw [maximumf_apply, addf_apply, product2_at, broadcastTo_1b_ab_apply, shapeCast_a_1a_apply]
  rfl

theorem lhs3_0 (i : S3200x16.Idx) (q : dot_S3200x32_S32x16_S3200x16_1_0_0_1_n_n.contr.Idx) :
    (dot_S3200x32_S32x16_S3200x16_1_0_0_1_n_n.lhsIdx i q 0).val = (i 0).val := by
  unfold DotDims.lhsIdx
  rw [dif_neg (show ¬(0 : Fin S3200x32.rank) ∈ dot_S3200x32_S32x16_S3200x16_1_0_0_1_n_n.lhsBatch by decide), dif_pos (show (0 : Fin S3200x32.rank) ∈ dot_S3200x32_S32x16_S3200x16_1_0_0_1_n_n.lhsNonContracting by decide)]
  rfl
theorem lhs3_1 (i : S3200x16.Idx) (q : dot_S3200x32_S32x16_S3200x16_1_0_0_1_n_n.contr.Idx) :
    (dot_S3200x32_S32x16_S3200x16_1_0_0_1_n_n.lhsIdx i q 1).val = (q ⟨0, by decide⟩).val :=
  dot_S3200x32_S32x16_S3200x16_1_0_0_1_n_n.lhsIdx_val_of_single rfl i q
theorem rhs3_0 (i : S3200x16.Idx) (q : dot_S3200x32_S32x16_S3200x16_1_0_0_1_n_n.contr.Idx) :
    (dot_S3200x32_S32x16_S3200x16_1_0_0_1_n_n.rhsIdx i q 0).val = (q ⟨0, by decide⟩).val :=
  dot_S3200x32_S32x16_S3200x16_1_0_0_1_n_n.rhsIdx_val_of_single rfl i q
theorem rhs3_1 (i : S3200x16.Idx) (q : dot_S3200x32_S32x16_S3200x16_1_0_0_1_n_n.contr.Idx) :
    (dot_S3200x32_S32x16_S3200x16_1_0_0_1_n_n.rhsIdx i q 1).val = (i 1).val := by
  unfold DotDims.rhsIdx
  rw [dif_neg (show ¬(1 : Fin S32x16.rank) ∈ dot_S3200x32_S32x16_S3200x16_1_0_0_1_n_n.rhsBatch by decide), dif_pos (show (1 : Fin S32x16.rank) ∈ dot_S3200x32_S32x16_S3200x16_1_0_0_1_n_n.rhsNonContracting by decide)]
  rfl

/-- Product 3 into the zero accumulator at `(p, n)`: the sum over `k` of `h(p, k) · w(k, n)`. -/
theorem product3_at (h : FVec Ideal S3200x32 .bf16) (w : FVec Ideal S32x16 .bf16) (p : Fin 3200) (n : Fin 16) :
    matmul dot_S3200x32_S32x16_S3200x16_1_0_0_1_n_n none h w (constant (F := Ideal) S3200x16 .f32 0x00000000#32) (ix2 p n)
      = ∑ k : Fin 32, h (ix2 p k) * w (ix2 k n) := by
  simp only [matmul]
  rw [Ideal.matmul_constant_zero_apply, ← Equiv.sum_comp (ValueIdx.contrEquiv1 dot_S3200x32_S32x16_S3200x16_1_0_0_1_n_n 32 rfl rfl).symm]
  refine Finset.sum_congr rfl fun k _ => ?_
  have hk := ValueIdx.contrEquiv1_symm_val dot_S3200x32_S32x16_S3200x16_1_0_0_1_n_n 32 rfl rfl k
  have el : dot_S3200x32_S32x16_S3200x16_1_0_0_1_n_n.lhsIdx (ix2 p n) ((ValueIdx.contrEquiv1 dot_S3200x32_S32x16_S3200x16_1_0_0_1_n_n 32 rfl rfl).symm k) = ix2 p k := funext fun a => Fin.ext (by
    match a with
    | ⟨0, _⟩ => exact lhs3_0 _ _
    | ⟨1, _⟩ => exact (lhs3_1 _ _).trans hk)
  have er : dot_S3200x32_S32x16_S3200x16_1_0_0_1_n_n.rhsIdx (ix2 p n) ((ValueIdx.contrEquiv1 dot_S3200x32_S32x16_S3200x16_1_0_0_1_n_n 32 rfl rfl).symm k) = ix2 k n := funext fun a => Fin.ext (by
    match a with
    | ⟨0, _⟩ => exact (rhs3_0 _ _).trans hk
    | ⟨1, _⟩ => exact rhs3_1 _ _)
  rw [el, er]

/-- Layer 3 at `(p, n)`: product, bias row, clamp at zero — one affine layer of row `p`, clamped. -/
theorem layer3_at (h : FVec Ideal S3200x32 .bf16) (w : FVec Ideal S32x16 .bf16) (b : Vec Ideal S16 .f32) (p : Fin 3200) (n : Fin 16) :
    maximumf (addf (matmul dot_S3200x32_S32x16_S3200x16_1_0_0_1_n_n none h w (constant (F := Ideal) S3200x16 .f32 0x00000000#32))
        (broadcastTo S3200x16 (shapeCast S1x16 b shapeCasts_S16_S1x16) broadcasts_S1x16_S3200x16))
      (broadcast S3200x16 (Scalar.ofBits (F := Ideal) .f32 0x00000000#32)) (ix2 p n)
      = clamp (affine (fun k n => w (ix2 k n)) (fun n => b (ix1 n)) (fun k : Fin 32 => h (ix2 p k))) n := by
  rw [maximumf_apply, addf_apply, product3_at, broadcastTo_1b_ab_apply, shapeCast_a_1a_apply]
  rfl

theorem lhs4_0 (i : S3200x8.Idx) (q : dot_S3200x16_S16x8_S3200x8_1_0_0_1_n_n.contr.Idx) :
    (dot_S3200x16_S16x8_S3200x8_1_0_0_1_n_n.lhsIdx i q 0).val = (i 0).val := by
  unfold DotDims.lhsIdx
  rw [dif_neg (show ¬(0 : Fin S3200x16.rank) ∈ dot_S3200x16_S16x8_S3200x8_1_0_0_1_n_n.lhsBatch by decide), dif_pos (show (0 : Fin S3200x16.rank) ∈ dot_S3200x16_S16x8_S3200x8_1_0_0_1_n_n.lhsNonContracting by decide)]
  rfl
theorem lhs4_1 (i : S3200x8.Idx) (q : dot_S3200x16_S16x8_S3200x8_1_0_0_1_n_n.contr.Idx) :
    (dot_S3200x16_S16x8_S3200x8_1_0_0_1_n_n.lhsIdx i q 1).val = (q ⟨0, by decide⟩).val :=
  dot_S3200x16_S16x8_S3200x8_1_0_0_1_n_n.lhsIdx_val_of_single rfl i q
theorem rhs4_0 (i : S3200x8.Idx) (q : dot_S3200x16_S16x8_S3200x8_1_0_0_1_n_n.contr.Idx) :
    (dot_S3200x16_S16x8_S3200x8_1_0_0_1_n_n.rhsIdx i q 0).val = (q ⟨0, by decide⟩).val :=
  dot_S3200x16_S16x8_S3200x8_1_0_0_1_n_n.rhsIdx_val_of_single rfl i q
theorem rhs4_1 (i : S3200x8.Idx) (q : dot_S3200x16_S16x8_S3200x8_1_0_0_1_n_n.contr.Idx) :
    (dot_S3200x16_S16x8_S3200x8_1_0_0_1_n_n.rhsIdx i q 1).val = (i 1).val := by
  unfold DotDims.rhsIdx
  rw [dif_neg (show ¬(1 : Fin S16x8.rank) ∈ dot_S3200x16_S16x8_S3200x8_1_0_0_1_n_n.rhsBatch by decide), dif_pos (show (1 : Fin S16x8.rank) ∈ dot_S3200x16_S16x8_S3200x8_1_0_0_1_n_n.rhsNonContracting by decide)]
  rfl

/-- Product 4 into the zero accumulator at `(p, n)`: the sum over `k` of `h(p, k) · w(k, n)`. -/
theorem product4_at (h : FVec Ideal S3200x16 .bf16) (w : FVec Ideal S16x8 .bf16) (p : Fin 3200) (n : Fin 8) :
    matmul dot_S3200x16_S16x8_S3200x8_1_0_0_1_n_n none h w (constant (F := Ideal) S3200x8 .f32 0x00000000#32) (ix2 p n)
      = ∑ k : Fin 16, h (ix2 p k) * w (ix2 k n) := by
  simp only [matmul]
  rw [Ideal.matmul_constant_zero_apply, ← Equiv.sum_comp (ValueIdx.contrEquiv1 dot_S3200x16_S16x8_S3200x8_1_0_0_1_n_n 16 rfl rfl).symm]
  refine Finset.sum_congr rfl fun k _ => ?_
  have hk := ValueIdx.contrEquiv1_symm_val dot_S3200x16_S16x8_S3200x8_1_0_0_1_n_n 16 rfl rfl k
  have el : dot_S3200x16_S16x8_S3200x8_1_0_0_1_n_n.lhsIdx (ix2 p n) ((ValueIdx.contrEquiv1 dot_S3200x16_S16x8_S3200x8_1_0_0_1_n_n 16 rfl rfl).symm k) = ix2 p k := funext fun a => Fin.ext (by
    match a with
    | ⟨0, _⟩ => exact lhs4_0 _ _
    | ⟨1, _⟩ => exact (lhs4_1 _ _).trans hk)
  have er : dot_S3200x16_S16x8_S3200x8_1_0_0_1_n_n.rhsIdx (ix2 p n) ((ValueIdx.contrEquiv1 dot_S3200x16_S16x8_S3200x8_1_0_0_1_n_n 16 rfl rfl).symm k) = ix2 k n := funext fun a => Fin.ext (by
    match a with
    | ⟨0, _⟩ => exact (rhs4_0 _ _).trans hk
    | ⟨1, _⟩ => exact rhs4_1 _ _)
  rw [el, er]

/-- Layer 4 at `(p, n)`: product, bias row, clamp at zero — one affine layer of row `p`, clamped. -/
theorem layer4_at (h : FVec Ideal S3200x16 .bf16) (w : FVec Ideal S16x8 .bf16) (b : Vec Ideal S8 .f32) (p : Fin 3200) (n : Fin 8) :
    maximumf (addf (matmul dot_S3200x16_S16x8_S3200x8_1_0_0_1_n_n none h w (constant (F := Ideal) S3200x8 .f32 0x00000000#32))
        (broadcastTo S3200x8 (shapeCast S1x8 b shapeCasts_S8_S1x8) broadcasts_S1x8_S3200x8))
      (broadcast S3200x8 (Scalar.ofBits (F := Ideal) .f32 0x00000000#32)) (ix2 p n)
      = clamp (affine (fun k n => w (ix2 k n)) (fun n => b (ix1 n)) (fun k : Fin 16 => h (ix2 p k))) n := by
  rw [maximumf_apply, addf_apply, product4_at, broadcastTo_1b_ab_apply, shapeCast_a_1a_apply]
  rfl

theorem lhs5_0 (i : S3200x4.Idx) (q : dot_S3200x8_S8x4_S3200x4_1_0_0_1_n_n.contr.Idx) :
    (dot_S3200x8_S8x4_S3200x4_1_0_0_1_n_n.lhsIdx i q 0).val = (i 0).val := by
  unfold DotDims.lhsIdx
  rw [dif_neg (show ¬(0 : Fin S3200x8.rank) ∈ dot_S3200x8_S8x4_S3200x4_1_0_0_1_n_n.lhsBatch by decide), dif_pos (show (0 : Fin S3200x8.rank) ∈ dot_S3200x8_S8x4_S3200x4_1_0_0_1_n_n.lhsNonContracting by decide)]
  rfl
theorem lhs5_1 (i : S3200x4.Idx) (q : dot_S3200x8_S8x4_S3200x4_1_0_0_1_n_n.contr.Idx) :
    (dot_S3200x8_S8x4_S3200x4_1_0_0_1_n_n.lhsIdx i q 1).val = (q ⟨0, by decide⟩).val :=
  dot_S3200x8_S8x4_S3200x4_1_0_0_1_n_n.lhsIdx_val_of_single rfl i q
theorem rhs5_0 (i : S3200x4.Idx) (q : dot_S3200x8_S8x4_S3200x4_1_0_0_1_n_n.contr.Idx) :
    (dot_S3200x8_S8x4_S3200x4_1_0_0_1_n_n.rhsIdx i q 0).val = (q ⟨0, by decide⟩).val :=
  dot_S3200x8_S8x4_S3200x4_1_0_0_1_n_n.rhsIdx_val_of_single rfl i q
theorem rhs5_1 (i : S3200x4.Idx) (q : dot_S3200x8_S8x4_S3200x4_1_0_0_1_n_n.contr.Idx) :
    (dot_S3200x8_S8x4_S3200x4_1_0_0_1_n_n.rhsIdx i q 1).val = (i 1).val := by
  unfold DotDims.rhsIdx
  rw [dif_neg (show ¬(1 : Fin S8x4.rank) ∈ dot_S3200x8_S8x4_S3200x4_1_0_0_1_n_n.rhsBatch by decide), dif_pos (show (1 : Fin S8x4.rank) ∈ dot_S3200x8_S8x4_S3200x4_1_0_0_1_n_n.rhsNonContracting by decide)]
  rfl

/-- Product 5 into the zero accumulator at `(p, n)`: the sum over `k` of `h(p, k) · w(k, n)`. -/
theorem product5_at (h : FVec Ideal S3200x8 .bf16) (w : FVec Ideal S8x4 .bf16) (p : Fin 3200) (n : Fin 4) :
    matmul dot_S3200x8_S8x4_S3200x4_1_0_0_1_n_n none h w (constant (F := Ideal) S3200x4 .f32 0x00000000#32) (ix2 p n)
      = ∑ k : Fin 8, h (ix2 p k) * w (ix2 k n) := by
  simp only [matmul]
  rw [Ideal.matmul_constant_zero_apply, ← Equiv.sum_comp (ValueIdx.contrEquiv1 dot_S3200x8_S8x4_S3200x4_1_0_0_1_n_n 8 rfl rfl).symm]
  refine Finset.sum_congr rfl fun k _ => ?_
  have hk := ValueIdx.contrEquiv1_symm_val dot_S3200x8_S8x4_S3200x4_1_0_0_1_n_n 8 rfl rfl k
  have el : dot_S3200x8_S8x4_S3200x4_1_0_0_1_n_n.lhsIdx (ix2 p n) ((ValueIdx.contrEquiv1 dot_S3200x8_S8x4_S3200x4_1_0_0_1_n_n 8 rfl rfl).symm k) = ix2 p k := funext fun a => Fin.ext (by
    match a with
    | ⟨0, _⟩ => exact lhs5_0 _ _
    | ⟨1, _⟩ => exact (lhs5_1 _ _).trans hk)
  have er : dot_S3200x8_S8x4_S3200x4_1_0_0_1_n_n.rhsIdx (ix2 p n) ((ValueIdx.contrEquiv1 dot_S3200x8_S8x4_S3200x4_1_0_0_1_n_n 8 rfl rfl).symm k) = ix2 k n := funext fun a => Fin.ext (by
    match a with
    | ⟨0, _⟩ => exact (rhs5_0 _ _).trans hk
    | ⟨1, _⟩ => exact rhs5_1 _ _)
  rw [el, er]

/-- Layer 5 at `(p, n)`: product, bias row, clamp at zero — one affine layer of row `p`, clamped. -/
theorem layer5_at (h : FVec Ideal S3200x8 .bf16) (w : FVec Ideal S8x4 .bf16) (b : Vec Ideal S4 .f32) (p : Fin 3200) (n : Fin 4) :
    maximumf (addf (matmul dot_S3200x8_S8x4_S3200x4_1_0_0_1_n_n none h w (constant (F := Ideal) S3200x4 .f32 0x00000000#32))
        (broadcastTo S3200x4 (shapeCast S1x4 b shapeCasts_S4_S1x4) broadcasts_S1x4_S3200x4))
      (broadcast S3200x4 (Scalar.ofBits (F := Ideal) .f32 0x00000000#32)) (ix2 p n)
      = clamp (affine (fun k n => w (ix2 k n)) (fun n => b (ix1 n)) (fun k : Fin 8 => h (ix2 p k))) n := by
  rw [maximumf_apply, addf_apply, product5_at, broadcastTo_1b_ab_apply, shapeCast_a_1a_apply]
  rfl

theorem lhs6_0 (i : S3200x1.Idx) (q : dot_S3200x4_S4x1_S3200x1_1_0_0_1_n_n.contr.Idx) :
    (dot_S3200x4_S4x1_S3200x1_1_0_0_1_n_n.lhsIdx i q 0).val = (i 0).val := by
  unfold DotDims.lhsIdx
  rw [dif_neg (show ¬(0 : Fin S3200x4.rank) ∈ dot_S3200x4_S4x1_S3200x1_1_0_0_1_n_n.lhsBatch by decide), dif_pos (show (0 : Fin S3200x4.rank) ∈ dot_S3200x4_S4x1_S3200x1_1_0_0_1_n_n.lhsNonContracting by decide)]
  rfl
theorem lhs6_1 (i : S3200x1.Idx) (q : dot_S3200x4_S4x1_S3200x1_1_0_0_1_n_n.contr.Idx) :
    (dot_S3200x4_S4x1_S3200x1_1_0_0_1_n_n.lhsIdx i q 1).val = (q ⟨0, by decide⟩).val :=
  dot_S3200x4_S4x1_S3200x1_1_0_0_1_n_n.lhsIdx_val_of_single rfl i q
theorem rhs6_0 (i : S3200x1.Idx) (q : dot_S3200x4_S4x1_S3200x1_1_0_0_1_n_n.contr.Idx) :
    (dot_S3200x4_S4x1_S3200x1_1_0_0_1_n_n.rhsIdx i q 0).val = (q ⟨0, by decide⟩).val :=
  dot_S3200x4_S4x1_S3200x1_1_0_0_1_n_n.rhsIdx_val_of_single rfl i q
theorem rhs6_1 (i : S3200x1.Idx) (q : dot_S3200x4_S4x1_S3200x1_1_0_0_1_n_n.contr.Idx) :
    (dot_S3200x4_S4x1_S3200x1_1_0_0_1_n_n.rhsIdx i q 1).val = (i 1).val := by
  unfold DotDims.rhsIdx
  rw [dif_neg (show ¬(1 : Fin S4x1.rank) ∈ dot_S3200x4_S4x1_S3200x1_1_0_0_1_n_n.rhsBatch by decide), dif_pos (show (1 : Fin S4x1.rank) ∈ dot_S3200x4_S4x1_S3200x1_1_0_0_1_n_n.rhsNonContracting by decide)]
  rfl

/-- Product 6 into the zero accumulator at `(p, n)`: the sum over `k` of `h(p, k) · w(k, n)`. -/
theorem product6_at (h : FVec Ideal S3200x4 .bf16) (w : FVec Ideal S4x1 .bf16) (p : Fin 3200) (n : Fin 1) :
    matmul dot_S3200x4_S4x1_S3200x1_1_0_0_1_n_n none h w (constant (F := Ideal) S3200x1 .f32 0x00000000#32) (ix2 p n)
      = ∑ k : Fin 4, h (ix2 p k) * w (ix2 k n) := by
  simp only [matmul]
  rw [Ideal.matmul_constant_zero_apply, ← Equiv.sum_comp (ValueIdx.contrEquiv1 dot_S3200x4_S4x1_S3200x1_1_0_0_1_n_n 4 rfl rfl).symm]
  refine Finset.sum_congr rfl fun k _ => ?_
  have hk := ValueIdx.contrEquiv1_symm_val dot_S3200x4_S4x1_S3200x1_1_0_0_1_n_n 4 rfl rfl k
  have el : dot_S3200x4_S4x1_S3200x1_1_0_0_1_n_n.lhsIdx (ix2 p n) ((ValueIdx.contrEquiv1 dot_S3200x4_S4x1_S3200x1_1_0_0_1_n_n 4 rfl rfl).symm k) = ix2 p k := funext fun a => Fin.ext (by
    match a with
    | ⟨0, _⟩ => exact lhs6_0 _ _
    | ⟨1, _⟩ => exact (lhs6_1 _ _).trans hk)
  have er : dot_S3200x4_S4x1_S3200x1_1_0_0_1_n_n.rhsIdx (ix2 p n) ((ValueIdx.contrEquiv1 dot_S3200x4_S4x1_S3200x1_1_0_0_1_n_n 4 rfl rfl).symm k) = ix2 k n := funext fun a => Fin.ext (by
    match a with
    | ⟨0, _⟩ => exact (rhs6_0 _ _).trans hk
    | ⟨1, _⟩ => exact rhs6_1 _ _)
  rw [el, er]

/-- The last layer at `(p, q)`: product and bias, no clamp. -/
theorem layer6_at (h : FVec Ideal S3200x4 .bf16) (w : FVec Ideal S4x1 .bf16) (b : Vec Ideal S1 .f32) (p : Fin 3200) (q : Fin 1) :
    addf (matmul dot_S3200x4_S4x1_S3200x1_1_0_0_1_n_n none h w (constant (F := Ideal) S3200x1 .f32 0x00000000#32))
        (broadcastTo S3200x1 (shapeCast S1x1 b shapeCasts_S1_S1x1) broadcasts_S1x1_S3200x1) (ix2 p q)
      = affine (fun k n => w (ix2 k n)) (fun n => b (ix1 n)) (fun k : Fin 4 => h (ix2 p k)) q := by
  rw [addf_apply, product6_at, broadcastTo_1b_ab_apply, shapeCast_a_1a_apply]
  rfl

/-! ## The two stored payloads at `(p, q)` -/

/-- The third hidden block (the value the body carries from its first part to its second) at `(p, n)`. -/
theorem hidden3_at (x0 x1 : Vec Ideal S3200x64 .f32) (x2 : Vec Ideal S128x64 .f32) (x3 : Vec Ideal S64 .f32)
    (x4 : Vec Ideal S64x32 .f32) (x5 : Vec Ideal S32 .f32) (x6 : Vec Ideal S32x16 .f32) (x7 : Vec Ideal S16 .f32)
    (x8 : Vec Ideal S16x8 .f32) (x9 : Vec Ideal S8 .f32) (x10 : Vec Ideal S8x4 .f32) (x11 : Vec Ideal S4 .f32)
    (x12 : Vec Ideal S4x1 .f32) (x13 : Vec Ideal S1 .f32) (p : Fin 3200) (n : Fin 16) :
    k0_pay4 x0 x1 x2 x3 x4 x5 x6 x7 (ix2 p n)
      = hidden3 (params x2 x3 x4 x5 x6 x7 x8 x9 x10 x11 x12 x13) (row x0 p) (row x1 p) n := by
  unfold k0_pay4
  try dsimp only
  simp only [truncf_apply, layer3_at, layer2_at, layer1_at, joined_at]
  rfl

/-- THE SCORE the body stores at `(p, q)` is the six-layer score of rows `p` of the two endpoint blocks. -/
theorem score_at (x0 x1 : Vec Ideal S3200x64 .f32) (x2 : Vec Ideal S128x64 .f32) (x3 : Vec Ideal S64 .f32)
    (x4 : Vec Ideal S64x32 .f32) (x5 : Vec Ideal S32 .f32) (x6 : Vec Ideal S32x16 .f32) (x7 : Vec Ideal S16 .f32)
    (x8 : Vec Ideal S16x8 .f32) (x9 : Vec Ideal S8 .f32) (x10 : Vec Ideal S8x4 .f32) (x11 : Vec Ideal S4 .f32)
    (x12 : Vec Ideal S4x1 .f32) (x13 : Vec Ideal S1 .f32) (p : Fin 3200) (q : Fin 1) :
    k0_pay6 (k0_pay4 x0 x1 x2 x3 x4 x5 x6 x7) (k0_pay5 x8) x9 x10 x11 x12 x13 (ix2 p q)
      = score (params x2 x3 x4 x5 x6 x7 x8 x9 x10 x11 x12 x13) (row x0 p) (row x1 p) q := by
  unfold k0_pay6 k0_pay5
  try dsimp only
  simp only [truncf_apply, layer6_at, layer5_at, layer4_at, hidden3_at x0 x1 x2 x3 x4 x5 x6 x7 x8 x9 x10 x11 x12 x13]
  rfl

/-- The inner product of the two rows, as the body forms it: a lane sum of the product block, kept as a column. -/
theorem inner_at (v1 v3 : FVec Ideal S3200x64 .f32) (p : Fin 3200) (q : Fin 1) :
    k0_pay7 v1 v3 (ix2 p q) = ∑ k : Fin 64, v1 (ix2 p k) * v3 (ix2 p k) :=
  rowsum_col_at (mulf v1 v3) p q

/-- The first row's norm, clamped at `ε`, as the body forms it. -/
theorem normA_at (v1 : FVec Ideal S3200x64 .f32) (p : Fin 3200) (q : Fin 1) :
    k0_pay8 v1 (ix2 p q) = normClamped (row v1 p) :=
  congrArg (fun s : EReal => max (Ideal.sqrt s) epsWord) (rowsum_col_at (mulf v1 v1) p q)

/-- The second row's norm before its clamp. -/
theorem normB_at (v3 : FVec Ideal S3200x64 .f32) (p : Fin 3200) (q : Fin 1) :
    k0_pay9 v3 (ix2 p q) = Ideal.sqrt (∑ k : Fin 64, v3 (ix2 p k) * v3 (ix2 p k)) :=
  congrArg Ideal.sqrt (rowsum_col_at (mulf v3 v3) p q)

/-- THE COSINE the body stores at `(p, q)` is the cosine of rows `p` of the two endpoint blocks. -/
theorem cosine_at (x0 x1 : Vec Ideal S3200x64 .f32) (p : Fin 3200) (q : Fin 1) :
    k0_pay1 (k0_pay7 (k0_pay2 x0) (k0_pay3 x1)) (k0_pay8 (k0_pay2 x0)) (k0_pay9 (k0_pay3 x1)) (k0_pay10 (F := Ideal)) (ix2 p q)
      = cosine (row x0 p) (row x1 p) := by
  have e2 : k0_pay2 x0 = x0 := shapeCast_self _ _
  have e3 : k0_pay3 x1 = x1 := shapeCast_self _ _
  rw [e2, e3]
  show Ideal.div (k0_pay7 (F := Ideal) x0 x1 (ix2 p q))
      (k0_pay8 (F := Ideal) x0 (ix2 p q) * max (k0_pay9 (F := Ideal) x1 (ix2 p q)) (k0_pay10 (F := Ideal) (ix2 p q))) = _
  rw [inner_at, normA_at, normB_at]
  rfl

end Cert.KernelIdeal.BlockValue

end
-- ==== Proof.KernelValue.lean ====
/-
  From blocks to arrays. The grid has 500 points; point `t` works on edges `3200·t … 3200·t + 3199`: its two
  endpoint blocks are those rows of the two gathered arrays, every weight and bias block is the whole array, and
  the two columns it writes back are those rows of the two result columns. Every entry the body stores depends on
  its own edge's rows only, so what point `t` writes back is block `t` of ONE function of the whole arrays (the
  score column, the cosine column), the 500 blocks cover each column, and each column ends holding that function.
  After the region the cosine column is reshaped to a vector, entry `r` from entry `(r, 0)`.
-/
import proofs.«125644_j15693810500067_1_alg».proof.Proof.Gen.KernelIdeal.Frame
import proofs.«125644_j15693810500067_1_alg».proof.Proof.KernelPayload
import Idealize.ShloMosaic.Lib.Pipeline.Value
import Idealize.ShloMosaic.Lib.StableHlo.Run

noncomputable section

namespace Cert.KernelIdeal.ArrayValue

open Cert.KernelIdeal Cert.KernelIdeal.Gen Cert.KernelIdeal.BlockValue Cert.EdgeScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## Where each window's block sits, decided over the grid -/

/-- The two endpoint windows and the two result windows move together: block row `t`, block column `0`. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- Every weight and bias window stays at block `0`: its one block is the whole array. -/
theorem idx_weights : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0
    ∧ win0_13.index t (0 : Fin 1) = 0 :=
  (by decide +kernel : ∀ t : Fin grid0.N, _)

theorem point_lt (t : Fin cfg0.N) : t.val < 500 := lt_of_lt_of_eq t.isLt N_0

/-! ## The blocks a point reads -/

/-- The two gathered endpoint arrays, as the region finds them. -/
abbrev xi (c : Dev nD) : (⟨2, ![1600000, 64]⟩ : Shape).Idx → EReal := V m c main_v8
abbrev xj (c : Dev nD) : (⟨2, ![1600000, 64]⟩ : Shape).Idx → EReal := V m c main_v17

/-- The edge that row `p` of point `t`'s blocks belongs to. -/
def edge (t : Fin cfg0.N) (p : Fin 3200) : Fin 1600000 :=
  ⟨t.val * 3200 + p.val, by have := point_lt t; have := p.isLt; omega⟩

/-- Row `p` of the first endpoint block at point `t` is row `edge t p` of the first gathered array. -/
theorem xi_row (c : Dev nD) (t : Fin cfg0.N) (p : Fin 3200) :
    row (iblk m c 0 t) p = row (xi m c) (edge t p) := by
  funext k
  show V m c main_v8 (((cfg0.win 0).blk t).view.emb (ix2 p k)) = V m c main_v8 (ix2 (edge t p) k)
  obtain ⟨e0, e1, -⟩ := idx_rows t
  refine congrArg (V m c main_v8) (funext fun a => Fin.ext ?_)
  match a with
  | ⟨0, _⟩ => show win0_0.index t (0 : Fin 2) * 3200 + 1 * p.val = t.val * 3200 + p.val; omega
  | ⟨1, _⟩ => show win0_0.index t (1 : Fin 2) * 64 + 1 * k.val = k.val; omega

/-- The same for the second endpoint block. -/
theorem xj_row (c : Dev nD) (t : Fin cfg0.N) (p : Fin 3200) :
    row (iblk m c 1 t) p = row (xj m c) (edge t p) := by
  funext k
  show V m c main_v17 (((cfg0.win 1).blk t).view.emb (ix2 p k)) = V m c main_v17 (ix2 (edge t p) k)
  obtain ⟨-, -, e0, e1, -⟩ := idx_rows t
  refine congrArg (V m c main_v17) (funext fun a => Fin.ext ?_)
  match a with
  | ⟨0, _⟩ => show win0_1.index t (0 : Fin 2) * 3200 + 1 * p.val = t.val * 3200 + p.val; omega
  | ⟨1, _⟩ => show win0_1.index t (1 : Fin 2) * 64 + 1 * k.val = k.val; omega

/-- Window 2's one block is the whole of `main_arg2`. -/
theorem blk2 (c : Dev nD) (t : Fin cfg0.N) : (iblk m c 2 t : S128x64.Idx → EReal) = V m c main_arg2 := by
  funext y
  show V m c main_arg2 (((cfg0.win 2).blk t).view.emb y) = V m c main_arg2 y
  obtain ⟨e0, e1, -⟩ := idx_weights t
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- Window 3's one block is the whole of `main_arg3`. -/
theorem blk3 (c : Dev nD) (t : Fin cfg0.N) : (iblk m c 3 t : S64.Idx → EReal) = V m c main_arg3 := by
  funext y
  show V m c main_arg3 (((cfg0.win 3).blk t).view.emb y) = V m c main_arg3 y
  obtain ⟨-, -, e0, -⟩ := idx_weights t
  refine congrArg (V m c main_arg3) (funext fun a => Fin.ext ?_)
  match a with
  | ⟨0, _⟩ => show win0_3.index t (0 : Fin 1) * 64 + 1 * (y 0).val = (y 0).val; omega

/-- Window 4's one block is the whole of `main_arg4`. -/
theorem blk4 (c : Dev nD) (t : Fin cfg0.N) : (iblk m c 4 t : S64x32.Idx → EReal) = V m c main_arg4 := by
  funext y
  show V m c main_arg4 (((cfg0.win 4).blk t).view.emb y) = V m c main_arg4 y
  obtain ⟨-, -, -, e0, e1, -⟩ := idx_weights t
  refine congrArg (V m c main_arg4) (funext fun a => Fin.ext ?_)
  match a with
  | ⟨0, _⟩ => show win0_4.index t (0 : Fin 2) * 64 + 1 * (y 0).val = (y 0).val; omega
  | ⟨1, _⟩ => show win0_4.index t (1 : Fin 2) * 32 + 1 * (y 1).val = (y 1).val; omega

/-- Window 5's one block is the whole of `main_arg5`. -/
theorem blk5 (c : Dev nD) (t : Fin cfg0.N) : (iblk m c 5 t : S32.Idx → EReal) = V m c main_arg5 := by
  funext y
  show V m c main_arg5 (((cfg0.win 5).blk t).view.emb y) = V m c main_arg5 y
  obtain ⟨-, -, -, -, -, e0, -⟩ := idx_weights t
  refine congrArg (V m c main_arg5) (funext fun a => Fin.ext ?_)
  match a with
  | ⟨0, _⟩ => show win0_5.index t (0 : Fin 1) * 32 + 1 * (y 0).val = (y 0).val; omega

/-- Window 6's one block is the whole of `main_arg6`. -/
theorem blk6 (c : Dev nD) (t : Fin cfg0.N) : (iblk m c 6 t : S32x16.Idx → EReal) = V m c main_arg6 := by
  funext y
  show V m c main_arg6 (((cfg0.win 6).blk t).view.emb y) = V m c main_arg6 y
  obtain ⟨-, -, -, -, -, -, e0, e1, -⟩ := idx_weights t
  refine congrArg (V m c main_arg6) (funext fun a => Fin.ext ?_)
  match a with
  | ⟨0, _⟩ => show win0_6.index t (0 : Fin 2) * 32 + 1 * (y 0).val = (y 0).val; omega
  | ⟨1, _⟩ => show win0_6.index t (1 : Fin 2) * 16 + 1 * (y 1).val = (y 1).val; omega

/-- Window 7's one block is the whole of `main_arg7`. -/
theorem blk7 (c : Dev nD) (t : Fin cfg0.N) : (iblk m c 7 t : S16.Idx → EReal) = V m c main_arg7 := by
  funext y
  show V m c main_arg7 (((cfg0.win 7).blk t).view.emb y) = V m c main_arg7 y
  obtain ⟨-, -, -, -, -, -, -, -, e0, -⟩ := idx_weights t
  refine congrArg (V m c main_arg7) (funext fun a => Fin.ext ?_)
  match a with
  | ⟨0, _⟩ => show win0_7.index t (0 : Fin 1) * 16 + 1 * (y 0).val = (y 0).val; omega

/-- Window 8's one block is the whole of `main_arg8`. -/
theorem blk8 (c : Dev nD) (t : Fin cfg0.N) : (iblk m c 8 t : S16x8.Idx → EReal) = V m c main_arg8 := by
  funext y
  show V m c main_arg8 (((cfg0.win 8).blk t).view.emb y) = V m c main_arg8 y
  obtain ⟨-, -, -, -, -, -, -, -, -, e0, e1, -⟩ := idx_weights t
  refine congrArg (V m c main_arg8) (funext fun a => Fin.ext ?_)
  match a with
  | ⟨0, _⟩ => show win0_8.index t (0 : Fin 2) * 16 + 1 * (y 0).val = (y 0).val; omega
  | ⟨1, _⟩ => show win0_8.index t (1 : Fin 2) * 8 + 1 * (y 1).val = (y 1).val; omega

/-- Window 9's one block is the whole of `main_arg9`. -/
theorem blk9 (c : Dev nD) (t : Fin cfg0.N) : (iblk m c 9 t : S8.Idx → EReal) = V m c main_arg9 := by
  funext y
  show V m c main_arg9 (((cfg0.win 9).blk t).view.emb y) = V m c main_arg9 y
  obtain ⟨-, -, -, -, -, -, -, -, -, -, -, e0, -⟩ := idx_weights t
  refine congrArg (V m c main_arg9) (funext fun a => Fin.ext ?_)
  match a with
  | ⟨0, _⟩ => show win0_9.index t (0 : Fin 1) * 8 + 1 * (y 0).val = (y 0).val; omega

/-- Window 10's one block is the whole of `main_arg10`. -/
theorem blk10 (c : Dev nD) (t : Fin cfg0.N) : (iblk m c 10 t : S8x4.Idx → EReal) = V m c main_arg10 := by
  funext y
  show V m c main_arg10 (((cfg0.win 10).blk t).view.emb y) = V m c main_arg10 y
  obtain ⟨-, -, -, -, -, -, -, -, -, -, -, -, e0, e1, -⟩ := idx_weights t
  refine congrArg (V m c main_arg10) (funext fun a => Fin.ext ?_)
  match a with
  | ⟨0, _⟩ => show win0_10.index t (0 : Fin 2) * 8 + 1 * (y 0).val = (y 0).val; omega
  | ⟨1, _⟩ => show win0_10.index t (1 : Fin 2) * 4 + 1 * (y 1).val = (y 1).val; omega

/-- Window 11's one block is the whole of `main_arg11`. -/
theorem blk11 (c : Dev nD) (t : Fin cfg0.N) : (iblk m c 11 t : S4.Idx → EReal) = V m c main_arg11 := by
  funext y
  show V m c main_arg11 (((cfg0.win 11).blk t).view.emb y) = V m c main_arg11 y
  obtain ⟨-, -, -, -, -, -, -, -, -, -, -, -, -, -, e0, -⟩ := idx_weights t
  refine congrArg (V m c main_arg11) (funext fun a => Fin.ext ?_)
  match a with
  | ⟨0, _⟩ => show win0_11.index t (0 : Fin 1) * 4 + 1 * (y 0).val = (y 0).val; omega

/-- Window 12's one block is the whole of `main_arg12`. -/
theorem blk12 (c : Dev nD) (t : Fin cfg0.N) : (iblk m c 12 t : S4x1.Idx → EReal) = V m c main_arg12 := by
  funext y
  show V m c main_arg12 (((cfg0.win 12).blk t).view.emb y) = V m c main_arg12 y
  obtain ⟨-, -, -, -, -, -, -, -, -, -, -, -, -, -, -, e0, e1, -⟩ := idx_weights t
  refine congrArg (V m c main_arg12) (funext fun a => Fin.ext ?_)
  match a with
  | ⟨0, _⟩ => show win0_12.index t (0 : Fin 2) * 4 + 1 * (y 0).val = (y 0).val; omega
  | ⟨1, _⟩ => show win0_12.index t (1 : Fin 2) * 1 + 1 * (y 1).val = (y 1).val; omega

/-- Window 13's one block is the whole of `main_arg13`. -/
theorem blk13 (c : Dev nD) (t : Fin cfg0.N) : (iblk m c 13 t : S1.Idx → EReal) = V m c main_arg13 := by
  funext y
  show V m c main_arg13 (((cfg0.win 13).blk t).view.emb y) = V m c main_arg13 y
  obtain ⟨-, -, -, -, -, -, -, -, -, -, -, -, -, -, -, -, -, e0⟩ := idx_weights t
  refine congrArg (V m c main_arg13) (funext fun a => Fin.ext ?_)
  match a with
  | ⟨0, _⟩ => show win0_13.index t (0 : Fin 1) * 1 + 1 * (y 0).val = (y 0).val; omega

/-- The parameters, read off the weight and bias arrays as the region finds them. -/
abbrev P (c : Dev nD) : Params := params (V m c main_arg2) (V m c main_arg3) (V m c main_arg4) (V m c main_arg5) (V m c main_arg6) (V m c main_arg7) (V m c main_arg8) (V m c main_arg9) (V m c main_arg10) (V m c main_arg11) (V m c main_arg12) (V m c main_arg13)

theorem params_blk (c : Dev nD) (t : Fin cfg0.N) :
    params (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = P m c := by
  rw [blk2 m c t, blk3 m c t, blk4 m c t, blk5 m c t, blk6 m c t, blk7 m c t, blk8 m c t, blk9 m c t, blk10 m c t, blk11 m c t, blk12 m c t, blk13 m c t]

/-- The score column / cosine column at an index whose row is known. -/
theorem scoreArr_at (Q : Params) (a b : (⟨2, ![1600000, 64]⟩ : Shape).Idx → EReal) (i : (⟨2, ![1600000, 1]⟩ : Shape).Idx)
    (r : Fin 1600000) (q : Fin 1) (hr : (i 0).val = r.val) (hq : (i 1).val = q.val) :
    scoreArr Q a b i = score Q (row a r) (row b r) q := by
  have e0 : (⟨(i 0).val, (i 0).isLt⟩ : Fin 1600000) = r := Fin.ext hr
  have e1 : (⟨(i 1).val, (i 1).isLt⟩ : Fin 1) = q := Fin.ext hq
  unfold scoreArr
  rw [e0, e1]

theorem cosCol_at (a b : (⟨2, ![1600000, 64]⟩ : Shape).Idx → EReal) (i : (⟨2, ![1600000, 1]⟩ : Shape).Idx)
    (r : Fin 1600000) (hr : (i 0).val = r.val) :
    cosCol a b i = cosine (row a r) (row b r) := by
  have e0 : (⟨(i 0).val, (i 0).isLt⟩ : Fin 1600000) = r := Fin.ext hr
  unfold cosCol
  rw [e0]

/-! ## What a point writes back -/

/-- WHAT POINT `t` WRITES BACK to the score column is block `t` of the score column of the whole arrays. -/
theorem flushed14_eq (c : Dev nD) (t : Fin cfg0.N) :
    (dats m 0 c).flushed 14 t = ((cfg0.win 14).blk t).view.read (Elt Ideal) (scoreArr (P m c) (xi m c) (xj m c)) := by
  show (cfg0.win 14).cut (grid0.coords t) ((dats m 0 c).after 14 t) = _
  rw [after0_14]
  unfold out0_14
  rw [View.canon_unit_zero hz2]
  simp only [View.ld_unit_zero (S := S3200x64) hz2, View.ld_unit_zero (S := S128x64) hz2, View.ld_unit_zero (S := S64x32) hz2,
    View.ld_unit_zero (S := S32x16) hz2, View.ld_unit_zero (S := S16x8) hz2, View.ld_unit_zero (S := S8x4) hz2,
    View.ld_unit_zero (S := S4x1) hz2, View.ld_unit_zero (S := S64) hz1, View.ld_unit_zero (S := S32) hz1,
    View.ld_unit_zero (S := S16) hz1, View.ld_unit_zero (S := S8) hz1, View.ld_unit_zero (S := S4) hz1,
    View.ld_unit_zero (S := S1) hz1]
  funext j
  obtain ⟨p, q, rfl⟩ : ∃ (p : Fin 3200) (q : Fin 1), j = ix2 p q := ⟨j 0, j 1, eq_ix2 j⟩
  obtain ⟨-, -, -, -, e0, e1, -⟩ := idx_rows t
  refine (score_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [params_blk m c t, xi_row m c t p, xj_row m c t p]
  refine (scoreArr_at (P m c) (xi m c) (xj m c) _ (edge t p) q ?_ ?_).symm
  · show win0_14.index t (0 : Fin 2) * 3200 + 1 * p.val = t.val * 3200 + p.val; omega
  · show win0_14.index t (1 : Fin 2) * 1 + 1 * q.val = q.val; omega

/-- WHAT POINT `t` WRITES BACK to the cosine column is block `t` of the cosine column of the whole arrays. -/
theorem flushed15_eq (c : Dev nD) (t : Fin cfg0.N) :
    (dats m 0 c).flushed 15 t = ((cfg0.win 15).blk t).view.read (Elt Ideal) (cosCol (xi m c) (xj m c)) := by
  show (cfg0.win 15).cut (grid0.coords t) ((dats m 0 c).after 15 t) = _
  rw [after0_15]
  unfold out0_15
  rw [View.canon_unit_zero hz2]
  simp only [View.ld_unit_zero (S := S3200x64) hz2]
  funext j
  obtain ⟨p, q, rfl⟩ : ∃ (p : Fin 3200) (q : Fin 1), j = ix2 p q := ⟨j 0, j 1, eq_ix2 j⟩
  obtain ⟨-, -, -, -, -, -, e0, e1⟩ := idx_rows t
  refine (cosine_at (iblk m c 0 t) (iblk m c 1 t) p q).trans ?_
  rw [xi_row m c t p, xj_row m c t p]
  refine (cosCol_at (xi m c) (xj m c) _ (edge t p) ?_).symm
  show win0_15.index t (0 : Fin 2) * 3200 + 1 * p.val = t.val * 3200 + p.val; omega

/-! ## The blocks cover the columns -/

theorem mem_blk14 (t : Fin cfg0.N) (i : S1600000x1.Idx) :
    i ∈ ((cfg0.win 14).blk t).view.set ↔ ∀ a : Fin 2, win0_14.index t a * S3200x1.size a ≤ (i a).val ∧ (i a).val < win0_14.index t a * S3200x1.size a + S3200x1.size a := by
  show i ∈ ((View.whole main_v18_0).slice (win0_14.rect t)).set ↔ _
  rw [View.set_slice_whole, Rect.mem_set_unit]
  exact Iff.rfl

theorem mem_blk15 (t : Fin cfg0.N) (i : S1600000x1.Idx) :
    i ∈ ((cfg0.win 15).blk t).view.set ↔ ∀ a : Fin 2, win0_15.index t a * S3200x1.size a ≤ (i a).val ∧ (i a).val < win0_15.index t a * S3200x1.size a + S3200x1.size a := by
  show i ∈ ((View.whole main_v18_1).slice (win0_15.rect t)).set ↔ _
  rw [View.set_slice_whole, Rect.mem_set_unit]
  exact Iff.rfl

/-- The point whose block holds row `r`: `r / 3200`. -/
def pointOf (i : S1600000x1.Idx) : Fin cfg0.N :=
  ⟨(i 0).val / 3200, by
    have h : (i 0).val < 1600000 := (i 0).isLt
    exact lt_of_lt_of_eq (show (i 0).val / 3200 < 500 by omega) N_0.symm⟩

theorem cover14 (i : S1600000x1.Idx) :
    ∃ t : Fin cfg0.N, (cfg0.win 14).flush t = true ∧ i ∈ ((cfg0.win 14).blk t).view.set := by
  have hi0 : (i 0).val < 1600000 := (i 0).isLt
  have hi1 : (i 1).val < 1 := (i 1).isLt
  obtain ⟨-, -, -, -, e0, e1, -⟩ := idx_rows (pointOf i)
  have ht : (pointOf i).val = (i 0).val / 3200 := rfl
  refine ⟨pointOf i, flush0_14 _, ?_⟩
  rw [mem_blk14]
  intro a
  match a with
  | ⟨0, _⟩ => show win0_14.index (pointOf i) (0 : Fin 2) * 3200 ≤ (i 0).val ∧ (i 0).val < win0_14.index (pointOf i) (0 : Fin 2) * 3200 + 3200; omega
  | ⟨1, _⟩ => show win0_14.index (pointOf i) (1 : Fin 2) * 1 ≤ (i 1).val ∧ (i 1).val < win0_14.index (pointOf i) (1 : Fin 2) * 1 + 1; omega

theorem cover15 (i : S1600000x1.Idx) :
    ∃ t : Fin cfg0.N, (cfg0.win 15).flush t = true ∧ i ∈ ((cfg0.win 15).blk t).view.set := by
  have hi0 : (i 0).val < 1600000 := (i 0).isLt
  have hi1 : (i 1).val < 1 := (i 1).isLt
  obtain ⟨-, -, -, -, -, -, e0, e1⟩ := idx_rows (pointOf i)
  have ht : (pointOf i).val = (i 0).val / 3200 := rfl
  refine ⟨pointOf i, flush0_15 _, ?_⟩
  rw [mem_blk15]
  intro a
  match a with
  | ⟨0, _⟩ => show win0_15.index (pointOf i) (0 : Fin 2) * 3200 ≤ (i 0).val ∧ (i 0).val < win0_15.index (pointOf i) (0 : Fin 2) * 3200 + 3200; omega
  | ⟨1, _⟩ => show win0_15.index (pointOf i) (1 : Fin 2) * 1 ≤ (i 1).val ∧ (i 1).val < win0_15.index (pointOf i) (1 : Fin 2) * 1 + 1; omega

/-! ## The columns after the region -/

/-- THE SCORE COLUMN after the region. -/
theorem final14 (c : Dev nD) : (dats m 0 c).arrAt 14 cfg0.N = scoreArr (P m c) (xi m c) (xj m c) :=
  (dats m 0 c).arrAt_eq_of_cover 14 (scoreArr (P m c) (xi m c) (xj m c)) (fun t _ => flushed14_eq m c t) cover14

/-- THE COSINE COLUMN after the region. -/
theorem final15 (c : Dev nD) : (dats m 0 c).arrAt 15 cfg0.N = cosCol (xi m c) (xj m c) :=
  (dats m 0 c).arrAt_eq_of_cover 15 (cosCol (xi m c) (xj m c)) (fun t _ => flushed15_eq m c t) cover15

/-- The parameters are the argument arrays as launched: no host line before the region writes them. -/
theorem P_eq (c : Dev nD) : P m c = params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold P
  rw [V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c]

/-! ## The line after the region: the cosine column reshaped to a vector -/

/-- A column `[1600000, 1]` reshaped to a vector reads, at `r`, the column at `(r, 0)`; for the cosine column that
    is the cosine vector. -/
theorem cosVec_of_col (a b : (⟨2, ![1600000, 64]⟩ : Shape).Idx → EReal) :
    shapeCast S1600000 (cosCol a b) shapeCasts_S1600000x1_S1600000 = cosVec a b := by
  funext i
  obtain ⟨r, rfl⟩ : ∃ r : Fin 1600000, i = ix1 r := ⟨i 0, eq_ix1 i⟩
  refine (shapeCast_apply (cosCol a b) shapeCasts_S1600000x1_S1600000 (ix1 r) (ix2 r (0 : Fin 1)) (by
    rw [Shape.rowMajor_val_two, Shape.rowMajor_val_one]
    show r.val * 1 + 0 = r.val
    omega)).trans ?_
  rfl

/-- The reshaped result after the whole program: the cosine vector. -/
theorem tail_v19 (c : Dev nD) :
    Pipeline.afterTail₀ cfgs (dats m) 0 (V0 m) [hostOps1] c main_v19 = cosVec (xi m c) (xj m c) := by
  unfold Pipeline.afterTail₀
  show StableHlo.after hostOps1 _ (Proc.devRef .tc main_v19) = _
  after_results
  rw [Pipeline.withArrays_arr spec0 launch0.win.arr_inj c _ _ 15]
  show shapeCast S1600000 ((dats m 0 c).arrAt 15 cfg0.N) shapeCasts_S1600000x1_S1600000 = _
  rw [final15, cosVec_of_col]

/-! ## The run, read -/

/-- The frame run re-posted: the score column and the cosine vector at their functions of the gathered arrays and
    the parameters, the arguments unchanged. -/
theorem run : θ_run defs (onTc (τ := τ) (main (F := Ideal))) ⟨m, fun _ => 0, ρ⟩ fun r => ∀ c : Dev nD,
      r.2.mem ((c : Thread nD τ).loc main_v18_0) = scoreArr (params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (xi m c) (xj m c)
      ∧ r.2.mem ((c : Thread nD τ).loc main_v19) = cosVec (xi m c) (xj m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(((h c).1 14).trans (final14 m c)).trans (congrArg (fun Q => scoreArr Q (xi m c) (xj m c)) (P_eq m c)),
      ((h c).2 main_v19 (Pipeline.mem_restRefs_of main_v19 (by decide) (by decide))).trans (tail_v19 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c)))⟩)
    (run_main m ρ)

end Cert.KernelIdeal.ArrayValue

end
-- ==== Proof.Gathered.lean ====
/-
  The shared prologue. Both programs begin with the same host lines: each row of the edge list is cut out,
  negative entries are wrapped by the node count, and the node features are gathered at the result. The two
  gathered arrays the kernel's region finds are therefore the reference's two gather stages of the same arguments;
  what a gather reads is never opened.
-/
import proofs.«125644_j15693810500067_1_alg».proof.Proof.Gen.KernelIdeal.Frame
import proofs.«125644_j15693810500067_1_alg».proof.Proof.Gen.ReferenceIdeal.Read
import Idealize.ShloMosaic.Lib.StableHlo.Run

noncomputable section

namespace Cert.Proof.Gathered

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

/-- The first gathered array, as the region finds it, is the reference's first gather stage of the node features and
    the edge list. -/
theorem first_eq (c : Dev Cert.KernelIdeal.nD) :
    (Cert.KernelIdeal.Gen.V m c Cert.KernelIdeal.main_v8 : (⟨2, ![1600000, 64]⟩ : Shape).Idx → EReal)
      = Cert.ReferenceIdeal.Read.val_main_v8 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v8) = _
  after_results_simp
  rfl

/-- The second gathered array likewise. -/
theorem second_eq (c : Dev Cert.KernelIdeal.nD) :
    (Cert.KernelIdeal.Gen.V m c Cert.KernelIdeal.main_v17 : (⟨2, ![1600000, 64]⟩ : Shape).Idx → EReal)
      = Cert.ReferenceIdeal.Read.val_main_v17 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v17) = _
  after_results_simp
  rfl

end Cert.Proof.Gathered

end
-- ==== Proof.lean ====
/-
  Two programs score every edge of a graph from the feature rows of its two endpoints: a score from a six-layer
  perceptron on the joined rows, and the cosine of the two rows with both norms clamped below at a small constant.
  The kernel gathers the endpoint rows on the host, then runs the whole computation on blocks of 3200 edges, with
  its matrix operands passed through a narrower float format; the reference does everything on whole arrays.

  Read over the extended reals a change of float format is the identity, a matrix product is a finite sum of
  products, and a lane sum is a finite sum, so each entry of either program's results is the same function of its
  own edge's two rows and the parameters (Proof/Spec.lean). The kernel's blocks are rows of the gathered arrays and
  cover the result columns (Proof/KernelPayload.lean, Proof/KernelValue.lean); the reference is read stage by stage
  at a row (Proof/RefValue.lean); the gathered arrays themselves are the same host lines in both programs and are
  never opened (Proof/Gathered.lean). No law that needs finite inputs is used: the precondition is not opened.
  The three frame claims are the generated frames and the reference's generated run; the idealization rewrote
  nothing, so its claim is trivial.
-/
import proofs.«125644_j15693810500067_1_alg».proof.Defs
import proofs.«125644_j15693810500067_1_alg».proof.Proof.Gen.Kernel
import proofs.«125644_j15693810500067_1_alg».proof.Proof.Gen.Kernel.Skeleton
import proofs.«125644_j15693810500067_1_alg».proof.Proof.Gen.Kernel.Launch
import proofs.«125644_j15693810500067_1_alg».proof.Proof.Gen.Kernel.Points
import proofs.«125644_j15693810500067_1_alg».proof.Proof.Gen.Kernel.Frame
import proofs.«125644_j15693810500067_1_alg».proof.Proof.Gen.KernelIdeal
import proofs.«125644_j15693810500067_1_alg».proof.Proof.Gen.KernelIdeal.Skeleton
import proofs.«125644_j15693810500067_1_alg».proof.Proof.Gen.KernelIdeal.Launch
import proofs.«125644_j15693810500067_1_alg».proof.Proof.Gen.KernelIdeal.Points
import proofs.«125644_j15693810500067_1_alg».proof.Proof.Gen.KernelIdeal.Frame
import proofs.«125644_j15693810500067_1_alg».proof.Proof.Gen.ReferenceIdeal
import proofs.«125644_j15693810500067_1_alg».proof.Proof.Gen.Pre_finite_inputs
import proofs.«125644_j15693810500067_1_alg».proof.Proof.Gen.ReferenceIdeal.Run
import proofs.«125644_j15693810500067_1_alg».proof.Proof.Gen.ReferenceIdeal.Read
import proofs.«125644_j15693810500067_1_alg».proof.Proof.Spec
import proofs.«125644_j15693810500067_1_alg».proof.Proof.RefValue
import proofs.«125644_j15693810500067_1_alg».proof.Proof.KernelPayload
import proofs.«125644_j15693810500067_1_alg».proof.Proof.KernelValue
import proofs.«125644_j15693810500067_1_alg».proof.Proof.Gathered
import Idealize.ShloMosaic.Adequacy
import Idealize.ShloMosaic.Init

noncomputable section

namespace Cert.Proof

open Idealize.ShloMosaic Idealize.ShloMosaic.TcCoe Idealize.SL.Sem Cert.EdgeScore

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the score column and the cosine vector of the same gathered rows and parameters. -/
theorem algebraic : Cert.algebraic_KernelIdeal_ReferenceIdeal := by
  intro m ρ m' ρ' _ hagree
  refine ⟨fun c => scoreArr (params
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13)))
        (Cert.KernelIdeal.ArrayValue.xi m c) (Cert.KernelIdeal.ArrayValue.xj m c),
      fun c => cosVec (Cert.KernelIdeal.ArrayValue.xi m c) (Cert.KernelIdeal.ArrayValue.xj m c),
      Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    refine (Cert.ReferenceIdeal.Read.val_main_v47_eq (F := Ideal) _ _ _ _ _ _ _ _ _ _ _ _ _ _).trans ?_
    rw [Cert.ReferenceIdeal.RefValue.score_eq, a0, a1, a2, a3, a4, a5, a6, a7, a8, a9, a10, a11, a12, a13,
      ← Cert.Proof.Gathered.first_eq m c, ← Cert.Proof.Gathered.second_eq m c]
  · obtain ⟨a0, a1, -⟩ := hagree c
    rw [Cert.ReferenceIdeal.Read.val_main_v61_eq, Cert.ReferenceIdeal.RefValue.cos_eq, a0, a1,
      ← Cert.Proof.Gathered.first_eq m c, ← Cert.Proof.Gathered.second_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
